-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_v43 : IVec S_ 1) (main_v47 : IVec S800000 1) (main_v51 : IVec S800000 1) : IVec S_ 1 :=
  let main_v52 : IVec S800000 1 := andi main_v47 main_v51
  let main_c_18 : IVec S_ 1 := constantI S_ 1 1#1
  let main_v53 : IVec S_ 1 := (fun x v => Host.reduce IntOp.andi x v reducesTo_S800000_S_d0 h_S_) main_v52 main_c_18
  let main_v54 : IVec S_ 1 := andi main_v43 main_v53
  main_v54

def fn_part2 {F : FTy → Type} [FloatOps F] (main_arg1 : IVec S2x800000 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x800000 32 := (extractStridedSlice S1x800000 ![1, 0] · slices_S2x800000_S1x800000_1_0) main_arg1
  let main_v45 : IVec S800000 32 := shapeCast S800000 main_v44 shapeCasts_S1x800000_S800000
  let main_c_16 : IVec S_ 32 := constantI S_ 32 4294917296#32
  let main_v46 : IVec S800000 32 := broadcastInDim S800000 ![] bcast_S_S800000 main_c_16
  let main_v47 : IVec S800000 1 := cmpi .sge main_v45 main_v46
  let main_v48 : IVec S1x800000 32 := (extractStridedSlice S1x800000 ![1, 0] · slices_S2x800000_S1x800000_1_0) main_arg1
  let main_v49 : IVec S800000 32 := shapeCast S800000 main_v48 shapeCasts_S1x800000_S800000
  let main_c_17 : IVec S_ 32 := constantI S_ 32 50000#32
  let main_v50 : IVec S800000 32 := broadcastInDim S800000 ![] bcast_S_S800000 main_c_17
  let main_v51 : IVec S800000 1 := cmpi .slt main_v49 main_v50
  fn_part3 (F := F) main_v43 main_v47 main_v51

def fn_part1 {F : FTy → Type} [FloatOps F] (main_arg1 : IVec S2x800000 32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S5000x1 : Shape := ⟨2, ![5000, 1]⟩

abbrev nBuf : Space → Nat
  | .hbm => 68
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x128, .bf16⟩
  | .hbm, ⟨15, _⟩ => ⟨S128x128, .bf16⟩
  | .hbm, ⟨16, _⟩ => ⟨S128x128, .bf16⟩
  | .hbm, ⟨17, _⟩ => ⟨S1x128, .f32⟩
  | .hbm, ⟨18, _⟩ => ⟨S1x128, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1, .i32⟩
  | .hbm, ⟨29, _⟩ => ⟨S_, .i32⟩
  | .hbm, ⟨30, _⟩ => ⟨S800000x1, .i32⟩
  | .hbm, ⟨31, _⟩ => ⟨S800000x1, .i1⟩
  | .hbm, ⟨32, _⟩ => ⟨S1x1, .i32⟩
  | .hbm, ⟨33, _⟩ => ⟨S800000x1, .i32⟩
  | .hbm, ⟨34, _⟩ => ⟨S800000x1, .i1⟩
  | .hbm, ⟨35, _⟩ => ⟨S800000x1, .i1⟩
  | .hbm, ⟨36, _⟩ => ⟨S_, .i1⟩
  | .hbm, ⟨37, _⟩ => ⟨S800000, .i1⟩
  | .hbm, ⟨38, _⟩ => ⟨S800000x128, .f32⟩
  | .hbm, ⟨39, _⟩ => ⟨S800000x128, .i1⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S_, .f32⟩
  | .hbm, ⟨48, _⟩ => ⟨S800000, .f32⟩
  | .hbm, ⟨49, _⟩ => ⟨S_, .f32⟩
  | .hbm, ⟨50, _⟩ => ⟨S50000, .f32⟩
  | .hbm, ⟨51, _⟩ => ⟨S800000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S128x128, .f32⟩
  | .hbm, ⟨61, _⟩ => ⟨S128x128, .bf16⟩
  | .hbm, ⟨62, _⟩ => ⟨S128x128, .f32⟩
  | .hbm, ⟨63, _⟩ => ⟨S128x128, .bf16⟩
  | .hbm, ⟨64, _⟩ => ⟨S128x128, .bf16⟩
  | .hbm, ⟨65, _⟩ => ⟨S1x128, .f32⟩
  | .hbm, ⟨66, _⟩ => ⟨S1x128, .f32⟩
  | .hbm, ⟨67, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .bf16⟩
  | .local _ .vmem, ⟨15, _⟩ => ⟨S128x128, .bf16⟩
  | .local _ .vmem, ⟨16, _⟩ => ⟨S1x128, .f32⟩
  | .local _ .vmem, ⟨17, _⟩ => ⟨S128x128, .bf16⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_cst_1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_2 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  slices_S256x128_S128x128_0_0 : S256x128.Slices ![0, 0] S128x128
  slices_S256x128_S128x128_128_0 : S256x128.Slices ![128, 0] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x256, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_cst : Ref sig .tc := ⟨.hbm, 58, rfl⟩
abbrev main_call2_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, index by index, on the extended reals.

  A node's message is a two-layer perceptron of its own feature row: m(n) = relu(relu(h(n)·W1 + b1)·W2 + b2).
  Messages are then gathered along edges and summed per destination node (both programs do that with the same
  host operations, so it is not restated here). The update of node n is
  relu(h(n)·U1[0:128] + (agg(n)·s(n))·U1[128:256] + c1)·U2 + c2, with s(n) the reciprocal of the clamped degree.
  A sum over the 256 joined columns splits into the two sums over 128 columns.
-/
import Idealize.ShloMosaic.PureOps.Ideal
import Idealize.ShloMosaic.Lib.ValueIdx

noncomputable section

open scoped BigOperators

namespace Cert.Gnn

open Idealize.ShloMosaic Idealize.ShloMosaic.ValueIdx

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal

/-- The row coordinate of a rank-2 index. -/
abbrev rowOfIdx {a b : Nat} (i : (⟨2, ![a, b]⟩ : Shape).Idx) : Fin a := ⟨(i 0).val, (i 0).isLt⟩
/-- The column coordinate of a rank-2 index. -/
abbrev colOfIdx {a b : Nat} (i : (⟨2, ![a, b]⟩ : Shape).Idx) : Fin b := ⟨(i 1).val, (i 1).isLt⟩

/-- The rectifier on the extended reals. -/
def relu (x : EReal) : EReal := max x 0

/-- One dense layer at one output column: the row `x` against column `j` of `W`, plus the bias (a `[1, 128]` row). -/
def dense {K : Nat} (x : Fin K → EReal) (W : Arr2 K 128) (b : Arr2 1 128) (j : Fin 128) : EReal :=
  (∑ k : Fin K, x k * W (ix2 k j)) + b (ix2 0 j)

/-- The message perceptron of one feature row. -/
def mlpRow (x : Fin 128 → EReal) (W1 : Arr2 128 128) (b1 : Arr2 1 128) (W2 : Arr2 128 128) (b2 : Arr2 1 128)
    (j : Fin 128) : EReal :=
  relu (dense (fun k => relu (dense x W1 b1 k)) W2 b2 j)

/-- Every node's message: the perceptron of the node's own row. -/
def msg (h : Arr2 50000 128) (W1 : Arr2 128 128) (b1 : Arr2 1 128) (W2 : Arr2 128 128) (b2 : Arr2 1 128) :
    Arr2 50000 128 :=
  fun i => mlpRow (fun l => h (ix2 (rowOfIdx i) l)) W1 b1 W2 b2 (colOfIdx i)

/-- The hidden layer of the update at node `n`, column `k`: the node's row against the upper half of the first
    weight, the scaled aggregate against the lower half, plus the bias. -/
def hidden (h agg : Arr2 50000 128) (s : Arr2 50000 1) (Ua Ub : Arr2 128 128) (c1 : Arr2 1 128)
    (n : Fin 50000) (k : Fin 128) : EReal :=
  ((∑ l : Fin 128, h (ix2 n l) * Ua (ix2 l k)) + (∑ l : Fin 128, (agg (ix2 n l) * s (ix2 n 0)) * Ub (ix2 l k)))
    + c1 (ix2 0 k)

/-- Every node's update. -/
def upd (h agg : Arr2 50000 128) (s : Arr2 50000 1) (Ua Ub : Arr2 128 128) (c1 : Arr2 1 128)
    (U2 : Arr2 128 128) (c2 : Arr2 1 128) : Arr2 50000 128 :=
  fun i => (∑ k : Fin 128, relu (hidden h agg s Ua Ub c1 (rowOfIdx i) k) * U2 (ix2 k (colOfIdx i)))
    + c2 (ix2 0 (colOfIdx i))

/-- A bias vector laid out as the `[1, 128]` row the kernels take it as. -/
def asRow (b : Arr1 128) : Arr2 1 128 := fun i => b (ix1 (colOfIdx i))

/-- The hidden layer of the update with the first weight whole (`[256, 128]`: rows 0–127 meet the node's own row,
    rows 128–255 the aggregate divided by the clamped degree `d`), the bias a vector. -/
def hiddenR (h agg : Arr2 50000 128) (d : Arr1 50000) (U1 : Arr2 256 128) (c1 : Arr1 128)
    (n : Fin 50000) (k : Fin 128) : EReal :=
  ((∑ l : Fin 128, h (ix2 n l) * U1 (ix2 (Fin.castAdd 128 l) k))
      + (∑ l : Fin 128, Ideal.div (agg (ix2 n l)) (d (ix1 n)) * U1 (ix2 (Fin.natAdd 128 l) k)))
    + c1 (ix1 k)

/-- Every node's update, in the reference's arrangement. -/
def updR (h agg : Arr2 50000 128) (d : Arr1 50000) (U1 : Arr2 256 128) (c1 : Arr1 128)
    (U2 : Arr2 128 128) (c2 : Arr1 128) : Arr2 50000 128 :=
  fun i => (∑ k : Fin 128, relu (hiddenR h agg d U1 c1 (rowOfIdx i) k) * U2 (ix2 k (colOfIdx i)))
    + c2 (ix1 (colOfIdx i))

end Cert.Gnn

end
-- ==== Proof.KReg0.lean ====
/-
  The first region's value. Its grid has ten points; point t stages rows 5000 t … 5000 t + 4999 of the node features,
  the two message weights and biases whole, and stores to the same rows of the output the message perceptron of each
  staged row: relu(relu(x·W1 + b1)·W2 + b2), each product a plain sum over the 128 contracted columns on the extended
  reals and a change of float format the identity there. The ten blocks tile the output array, so after the region it
  holds every node's message as one function of the arrays the region was entered with.
-/
import proofs.«414464_j36455682408725_3_alg».proof.Proof.Gen.KernelIdeal.Frame
import proofs.«414464_j36455682408725_3_alg».proof.Proof.Spec
import Idealize.ShloMosaic.Lib.Pipeline.Value
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open scoped BigOperators

/-! ## One matrix product of the body, read at an index -/

/-- The row coordinate of the left operand's index is the output's row. -/
theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contraction coordinate. -/
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The row coordinate of the right operand's index is the contraction coordinate. -/
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate is the output's column. -/
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a block of rows with a square weight, accumulated from zero, at row `p` and column `q`:
    the sum over the 128 inner coordinates. -/
theorem matmul_at (a : FVec Ideal S5000x128 .bf16) (W : FVec Ideal S128x128 .bf16) (p : Fin 5000) (q : Fin 128) :
    matmul dot_S5000x128_S128x128_S5000x128_1_0_0_1_n_n none a W (constant (F := Ideal) S5000x128 .f32 0x00000000#32) (ix2 p q)
      = ∑ k : Fin 128, a (ix2 p k) * W (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact lhs_ax0 _ _
    | ⟨1, _⟩ => exact (lhs_ax1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (rhs_ax0 _ _).trans hk
    | ⟨1, _⟩ => exact rhs_ax1 _ _)
  rw [el, er]

/-- A bias row spread over the block's rows reads the bias at the column. -/
theorem bias_at (b : FVec Ideal S1x128 .f32) (p : Fin 5000) (q : Fin 128) :
    broadcastTo S5000x128 b broadcasts_S1x128_S5000x128 (ix2 p q) = b (ix2 0 q) := by
  refine broadcastTo_apply b broadcasts_S1x128_S5000x128 (ix2 p q) (ix2 0 q) fun d => ?_
  match d with
  | ⟨0, _⟩ => rfl
  | ⟨1, _⟩ => rfl

/-- One layer of the body at row `p` and column `q`: the rectified dense layer of row `p`. -/
theorem layer_at (a : FVec Ideal S5000x128 .bf16) (W : FVec Ideal S128x128 .bf16) (b : FVec Ideal S1x128 .f32) (p : Fin 5000) (q : Fin 128) :
    maximumf (addf (matmul dot_S5000x128_S128x128_S5000x128_1_0_0_1_n_n none a W (constant (F := Ideal) S5000x128 .f32 0x00000000#32))
        (broadcastTo S5000x128 b broadcasts_S1x128_S5000x128)) (broadcast S5000x128 (Scalar.ofBits (F := Ideal) .f32 0x00000000#32)) (ix2 p q)
      = Cert.Gnn.relu (Cert.Gnn.dense (fun k => a (ix2 p k)) W b q) := by
  rw [maximumf_apply, addf_apply, matmul_at, bias_at, broadcast_apply]
  show max _ (Ideal.ofBits .f32 0x00000000#32) = _
  rw [Ideal.ofBits_zero_f32]
  rfl

/-- The body's stored value at row `p` and column `q` of its block: the message perceptron of row `p` of the feature block. -/
theorem pay_at (x : Vec Ideal S5000x128 .bf16) (W1 : Vec Ideal S128x128 .bf16) (b1 : Vec Ideal S1x128 .f32)
    (W2 : Vec Ideal S128x128 .bf16) (b2 : Vec Ideal S1x128 .f32) (p : Fin 5000) (q : Fin 128) :
    k0_pay1 (F := Ideal) x W1 b1 W2 b2 (ix2 p q) = Cert.Gnn.mlpRow (fun l => x (ix2 p l)) W1 b1 W2 b2 q := by
  unfold k0_pay1
  simp only [shapeCast_self]
  rw [layer_at]
  unfold Cert.Gnn.mlpRow
  congr 2
  funext k
  rw [truncf_apply, layer_at]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature and output windows move together down the rows, one block a point;
    the weights and biases stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One element of what a point stores, against the message array: when the point's feature block holds the rows of
    the feature array that the element's row names, and the weights and biases are the arrays', the stored element is
    the message at the array index with the same column. -/
theorem point_eq (x : Vec Ideal S5000x128 .bf16) (W1 : Vec Ideal S128x128 .bf16) (b1 : Vec Ideal S1x128 .f32)
    (W2 : Vec Ideal S128x128 .bf16) (b2 : Vec Ideal S1x128 .f32)
    (h : Cert.Gnn.Arr2 50000 128) (W1' : Cert.Gnn.Arr2 128 128) (b1' : Cert.Gnn.Arr2 1 128)
    (W2' : Cert.Gnn.Arr2 128 128) (b2' : Cert.Gnn.Arr2 1 128)
    (y : S5000x128.Idx) (i : S50000x128.Idx)
    (hx : ∀ l : Fin 128, x (ix2 (y 0) l) = h (ix2 (Cert.Gnn.rowOfIdx i) l))
    (hW1 : W1 = W1') (hb1 : b1 = b1') (hW2 : W2 = W2') (hb2 : b2 = b2')
    (hcol : (i 1).val = (y 1).val) :
    k0_pay1 (F := Ideal) x W1 b1 W2 b2 y = Cert.Gnn.msg h W1' b1' W2' b2' i := by
  subst hW1 hb1 hW2 hb2
  obtain ⟨p, q, rfl⟩ : ∃ (p : Fin 5000) (q : Fin 128), y = ix2 p q := ⟨y 0, y 1, eq_ix2 y⟩
  rw [pay_at]
  have e : (fun l : Fin 128 => x (ix2 p l)) = fun l => h (ix2 (Cert.Gnn.rowOfIdx i) l) := funext hx
  have hq : Cert.Gnn.colOfIdx i = q := Fin.ext hcol
  show _ = Cert.Gnn.mlpRow (fun l => h (ix2 (Cert.Gnn.rowOfIdx i) l)) W1 b1 W2 b2 (Cert.Gnn.colOfIdx i)
  rw [e, hq]

/-- What a point writes back is its block of the message array of the arrays the region was entered with. -/
theorem flushed_eq (c : Dev nD) (t : Fin cfg0.N) :
    (dat0 (F := Ideal) V c).flushed 5 t = ((cfg0.win 5).blk t).view.read (Elt Ideal)
      (Cert.Gnn.msg (V c main_v4) (V c main_v5) (V c main_v7) (V c main_v6) (V c main_v8)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine point_eq (iblk0 V c 0 t) (iblk0 V c 1 t) (iblk0 V c 2 t) (iblk0 V c 3 t) (iblk0 V c 4 t)
    (V c main_v4) (V c main_v5) (V c main_v7) (V c main_v6) (V c main_v8)
    ((cfg0.win 5).xinj (grid0.coords t) j) (((cfg0.win 5).blk t).view.emb j) ?_ ?_ ?_ ?_ ?_ ?_
  · intro l
    show V c main_v4 (((cfg0.win 0).blk t).view.emb (ix2 ⟨(j 0).val, _⟩ l)) = V c main_v4 _
    refine congrArg (V c main_v4) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * l.val = l.val; omega
  · funext y
    show V c main_v5 (((cfg0.win 1).blk t).view.emb y) = V c main_v5 y
    refine congrArg (V c main_v5) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v7 (((cfg0.win 2).blk t).view.emb y) = V c main_v7 y
    refine congrArg (V c main_v7) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · funext y
    show V c main_v6 (((cfg0.win 3).blk t).view.emb y) = V c main_v6 y
    refine congrArg (V c main_v6) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v8 (((cfg0.win 4).blk t).view.emb y) = V c main_v8 y
    refine congrArg (V c main_v8) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show win0_5.index t (1 : Fin 2) * 128 + 1 * (j 1).val = (j 1).val
    omega

/-- An index of the output array is in a point's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v9).slice (win0_5.rect t)).set ↔ _
  rw [View.set_slice_whole, Rect.mem_set_unit]
  exact Iff.rfl

/-- Every row of the output array is in the block of the point that is the row divided by the 5000 rows of a block. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨_, _, _, _, _, _, _, _, _, _, e50, e51⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After the first region its output array holds every node's message, computed from the arrays the region was
    entered with. -/
theorem value (c : Dev nD) :
    (dat0 (F := Ideal) V c).arrAt 5 cfg0.N
      = Cert.Gnn.msg (V c main_v4) (V c main_v5) (V c main_v7) (V c main_v6) (V c main_v8) :=
  (dat0 (F := Ideal) V c).arrAt_eq_of_cover 5
    (Cert.Gnn.msg (V c main_v4) (V c main_v5) (V c main_v7) (V c main_v6) (V c main_v8))
    (fun t _ => flushed_eq V c t) covered

end Cert.KernelIdeal.Reg0

end
-- ==== Proof.KReg1.lean ====
/-
  The second region's value. Its grid has ten points; point t stages rows 5000 t … 5000 t + 4999 of the node features,
  of the aggregated messages and of the column of reciprocal degrees, the update's weights and biases whole, and stores
  to the same rows of the output relu(x·Ua + (agg · s)·Ub + c1)·U2 + c2, each product a plain sum over the 128
  contracted columns on the extended reals and a change of float format the identity there. The ten blocks tile the
  output array, so after the region it holds every node's update as one function of the arrays the region was entered
  with.
-/
import proofs.«414464_j36455682408725_3_alg».proof.Proof.Gen.KernelIdeal.Frame
import proofs.«414464_j36455682408725_3_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-! ## One matrix product read at an index -/

/-- The left operand's row coordinate is the output's row. -/
theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into the zero accumulator, at row `p` and column `q`: the sum over the 128
    shared coordinates of the products. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-! ## The two broadcasts read at an index -/

/-- A [1,128] row broadcast over 5000 rows reads the row's entry of the column. -/
theorem bcast_row_at {α : Type} (v : S1x128.Idx → α) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => match a with
    | ⟨0, _⟩ => by show (0 : ℕ) = if (1 : ℕ) = 1 then 0 else p.val; rw [if_pos rfl]
    | ⟨1, _⟩ => by show q.val = if (128 : ℕ) = 1 then 0 else q.val; rw [if_neg (by decide)])

/-- A [5000,1] column broadcast over 128 columns reads the column's entry of the row. -/
theorem bcast_col_at {α : Type} (v : S5000x1.Idx → α) (p : Fin 5000) (q : Fin 128) :
    broadcastTo S5000x128 v broadcasts_S5000x1_S5000x128 (ix2 p q) = v (ix2 p 0) :=
  broadcastTo_apply v broadcasts_S5000x1_S5000x128 (ix2 p q) (ix2 p 0) (fun a => match a with
    | ⟨0, _⟩ => by show p.val = if (5000 : ℕ) = 1 then 0 else p.val; rw [if_neg (by decide)]
    | ⟨1, _⟩ => by show (0 : ℕ) = if (1 : ℕ) = 1 then 0 else q.val; rw [if_pos rfl])

/-! ## The body's arithmetic at an index -/

/-- The payload at row `p`, column `q` of its block: the update's formula of the eight loaded blocks (a change of
    float format and a cast to the same shape are the identity; a product into the zero accumulator is the plain sum;
    the rectifier is the maximum with zero). -/
theorem pay_at (h : Vec Ideal S5000x128 .bf16) (g : Vec Ideal S5000x128 .f32) (s : Vec Ideal S5000x1 .f32)
    (Ua Ub : Vec Ideal S128x128 .bf16) (c1 : Vec Ideal S1x128 .f32) (U2 : Vec Ideal S128x128 .bf16)
    (c2 : Vec Ideal S1x128 .f32) (p : Fin 5000) (q : Fin 128) :
    k1_pay1 (F := Ideal) h g s Ua Ub c1 U2 c2 (ix2 p q)
      = (∑ k : Fin 128, Cert.Gnn.relu (((∑ l : Fin 128, h (ix2 p l) * Ua (ix2 l k))
            + (∑ l : Fin 128, (g (ix2 p l) * s (ix2 p 0)) * Ub (ix2 l k))) + c1 (ix2 0 k)) * U2 (ix2 k q))
          + c2 (ix2 0 q) := by
  unfold k1_pay1
  simp only [shapeCast_self]
  simp only [addf_apply, truncf_apply, maximumf_apply, mulf_apply, bcast_row_at, bcast_col_at, matmul_at, broadcast_apply]
  have hz0 : FloatOps.ofBits (F := Ideal) FTy.f32 0x00000000#32 = 0 := Ideal.ofBits_zero_f32
  rw [hz0]
  rfl

/-! ## From the blocks to the array -/

/-- The zero offset of a rank-2 block. -/
theorem hz : (![0, 0] : Fin 2 → Nat) = fun _ => 0 := funext fun a => by fin_cases a <;> rfl

/-- The windows' block indices at every point of the grid: the three row-blocked inputs and the output are at block
    row `t`, block column 0; the five whole-array inputs at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- Block `t` of the node features is rows `5000 t … 5000 t + 4999` of the array. -/
theorem blk0_apply (c : Dev nD) (t : Fin cfg1.N) (x : S5000x128.Idx) (k : S50000x128.Idx)
    (hk0 : (k 0).val = t.val * 5000 + (x 0).val) (hk1 : (k 1).val = (x 1).val) :
    (iblk1 (F := Ideal) V c 0 t : Vec Ideal S5000x128 .bf16) x = (V c main_v4 : S50000x128.Idx → Elt Ideal .bf16) k := by
  obtain ⟨⟨i0, i1⟩, -⟩ := idx_facts t
  unfold iblk1
  rw [View.read_apply]
  show V c main_v4 _ = V c main_v4 _
  congr 1
  funext a
  apply Fin.ext
  match a with
  | ⟨0, _⟩ => show win1_0.index t (0 : Fin 2) * 5000 + 1 * (x 0).val = (k 0).val; rw [i0, hk0]; omega
  | ⟨1, _⟩ => show win1_0.index t (1 : Fin 2) * 128 + 1 * (x 1).val = (k 1).val; rw [i1, hk1]; omega

/-- Block `t` of the aggregated messages is the same rows of that array. -/
theorem blk1_apply (c : Dev nD) (t : Fin cfg1.N) (x : S5000x128.Idx) (k : S50000x128.Idx)
    (hk0 : (k 0).val = t.val * 5000 + (x 0).val) (hk1 : (k 1).val = (x 1).val) :
    (iblk1 (F := Ideal) V c 1 t : Vec Ideal S5000x128 .f32) x = (V c main_v13 : S50000x128.Idx → Elt Ideal .f32) k := by
  obtain ⟨-, ⟨i0, i1⟩, -⟩ := idx_facts t
  unfold iblk1
  rw [View.read_apply]
  show V c main_v13 _ = V c main_v13 _
  congr 1
  funext a
  apply Fin.ext
  match a with
  | ⟨0, _⟩ => show win1_1.index t (0 : Fin 2) * 5000 + 1 * (x 0).val = (k 0).val; rw [i0, hk0]; omega
  | ⟨1, _⟩ => show win1_1.index t (1 : Fin 2) * 128 + 1 * (x 1).val = (k 1).val; rw [i1, hk1]; omega

/-- Block `t` of the inverse degrees is the same rows of that column. -/
theorem blk2_apply (c : Dev nD) (t : Fin cfg1.N) (x : S5000x1.Idx) (k : S50000x1.Idx)
    (hk0 : (k 0).val = t.val * 5000 + (x 0).val) (hk1 : (k 1).val = (x 1).val) :
    (iblk1 (F := Ideal) V c 2 t : Vec Ideal S5000x1 .f32) x = (V c main_v22 : S50000x1.Idx → Elt Ideal .f32) k := by
  obtain ⟨-, -, ⟨i0, i1⟩, -⟩ := idx_facts t
  unfold iblk1
  rw [View.read_apply]
  show V c main_v22 _ = V c main_v22 _
  congr 1
  funext a
  apply Fin.ext
  match a with
  | ⟨0, _⟩ => show win1_2.index t (0 : Fin 2) * 5000 + 1 * (x 0).val = (k 0).val; rw [i0, hk0]; omega
  | ⟨1, _⟩ => show win1_2.index t (1 : Fin 2) * 1 + 1 * (x 1).val = (k 1).val; rw [i1, hk1]; omega

/-- The upper half of the first weight is staged whole at every point. -/
theorem blk3_apply (c : Dev nD) (t : Fin cfg1.N) (x : S128x128.Idx) :
    (iblk1 (F := Ideal) V c 3 t : Vec Ideal S128x128 .bf16) x = (V c main_v24 : S128x128.Idx → Elt Ideal .bf16) x := by
  obtain ⟨-, -, -, ⟨i0, i1⟩, -⟩ := idx_facts t
  unfold iblk1
  rw [View.read_apply]
  show V c main_v24 _ = V c main_v24 _
  congr 1
  funext a
  apply Fin.ext
  match a with
  | ⟨0, _⟩ => show win1_3.index t (0 : Fin 2) * 128 + 1 * (x 0).val = (x 0).val; rw [i0]; omega
  | ⟨1, _⟩ => show win1_3.index t (1 : Fin 2) * 128 + 1 * (x 1).val = (x 1).val; rw [i1]; omega

/-- The lower half of the first weight is staged whole at every point. -/
theorem blk4_apply (c : Dev nD) (t : Fin cfg1.N) (x : S128x128.Idx) :
    (iblk1 (F := Ideal) V c 4 t : Vec Ideal S128x128 .bf16) x = (V c main_v26 : S128x128.Idx → Elt Ideal .bf16) x := by
  obtain ⟨-, -, -, -, ⟨i0, i1⟩, -⟩ := idx_facts t
  unfold iblk1
  rw [View.read_apply]
  show V c main_v26 _ = V c main_v26 _
  congr 1
  funext a
  apply Fin.ext
  match a with
  | ⟨0, _⟩ => show win1_4.index t (0 : Fin 2) * 128 + 1 * (x 0).val = (x 0).val; rw [i0]; omega
  | ⟨1, _⟩ => show win1_4.index t (1 : Fin 2) * 128 + 1 * (x 1).val = (x 1).val; rw [i1]; omega

/-- The first bias is staged whole at every point. -/
theorem blk5_apply (c : Dev nD) (t : Fin cfg1.N) (x : S1x128.Idx) :
    (iblk1 (F := Ideal) V c 5 t : Vec Ideal S1x128 .f32) x = (V c main_v28 : S1x128.Idx → Elt Ideal .f32) x := by
  obtain ⟨-, -, -, -, -, ⟨i0, i1⟩, -⟩ := idx_facts t
  unfold iblk1
  rw [View.read_apply]
  show V c main_v28 _ = V c main_v28 _
  congr 1
  funext a
  apply Fin.ext
  match a with
  | ⟨0, _⟩ => show win1_5.index t (0 : Fin 2) * 1 + 1 * (x 0).val = (x 0).val; rw [i0]; omega
  | ⟨1, _⟩ => show win1_5.index t (1 : Fin 2) * 128 + 1 * (x 1).val = (x 1).val; rw [i1]; omega

/-- The second weight is staged whole at every point. -/
theorem blk6_apply (c : Dev nD) (t : Fin cfg1.N) (x : S128x128.Idx) :
    (iblk1 (F := Ideal) V c 6 t : Vec Ideal S128x128 .bf16) x = (V c main_v27 : S128x128.Idx → Elt Ideal .bf16) x := by
  obtain ⟨-, -, -, -, -, -, ⟨i0, i1⟩, -⟩ := idx_facts t
  unfold iblk1
  rw [View.read_apply]
  show V c main_v27 _ = V c main_v27 _
  congr 1
  funext a
  apply Fin.ext
  match a with
  | ⟨0, _⟩ => show win1_6.index t (0 : Fin 2) * 128 + 1 * (x 0).val = (x 0).val; rw [i0]; omega
  | ⟨1, _⟩ => show win1_6.index t (1 : Fin 2) * 128 + 1 * (x 1).val = (x 1).val; rw [i1]; omega

/-- The second bias is staged whole at every point. -/
theorem blk7_apply (c : Dev nD) (t : Fin cfg1.N) (x : S1x128.Idx) :
    (iblk1 (F := Ideal) V c 7 t : Vec Ideal S1x128 .f32) x = (V c main_v29 : S1x128.Idx → Elt Ideal .f32) x := by
  obtain ⟨-, -, -, -, -, -, -, ⟨i0, i1⟩, -⟩ := idx_facts t
  unfold iblk1
  rw [View.read_apply]
  show V c main_v29 _ = V c main_v29 _
  congr 1
  funext a
  apply Fin.ext
  match a with
  | ⟨0, _⟩ => show win1_7.index t (0 : Fin 2) * 1 + 1 * (x 0).val = (x 0).val; rw [i0]; omega
  | ⟨1, _⟩ => show win1_7.index t (1 : Fin 2) * 128 + 1 * (x 1).val = (x 1).val; rw [i1]; omega

/-- The payload of blocks that are the right rows of the arrays is the update at the node: block row `p` of block
    `t` is node `n`. -/
theorem point_val (H : S50000x128.Idx → Elt Ideal .bf16) (G : S50000x128.Idx → Elt Ideal .f32)
    (S : S50000x1.Idx → Elt Ideal .f32) (Ua Ub : S128x128.Idx → Elt Ideal .bf16) (C1 : S1x128.Idx → Elt Ideal .f32)
    (U2 : S128x128.Idx → Elt Ideal .bf16) (C2 : S1x128.Idx → Elt Ideal .f32)
    (x0 : Vec Ideal S5000x128 .bf16) (x1 : Vec Ideal S5000x128 .f32) (x2 : Vec Ideal S5000x1 .f32)
    (x3 x4 : Vec Ideal S128x128 .bf16) (x5 : Vec Ideal S1x128 .f32) (x6 : Vec Ideal S128x128 .bf16)
    (x7 : Vec Ideal S1x128 .f32) (n : Fin 50000) (p : Fin 5000) (q : Fin 128)
    (e0 : ∀ l : Fin 128, x0 (ix2 p l) = H (ix2 n l)) (e1 : ∀ l : Fin 128, x1 (ix2 p l) = G (ix2 n l))
    (e2 : x2 (ix2 p 0) = S (ix2 n 0)) (e3 : ∀ y, x3 y = Ua y) (e4 : ∀ y, x4 y = Ub y) (e5 : ∀ y, x5 y = C1 y)
    (e6 : ∀ y, x6 y = U2 y) (e7 : ∀ y, x7 y = C2 y) :
    k1_pay1 (F := Ideal) x0 x1 x2 x3 x4 x5 x6 x7 (ix2 p q) = Cert.Gnn.upd H G S Ua Ub C1 U2 C2 (ix2 n q) := by
  rw [pay_at]
  simp only [e0, e1, e2, e3, e4, e5, e6, e7]
  rfl

/-- What point `t` computes at an index of its block is the update at the node the index names: row `p` of block
    `t` is node `5000 t + p`. -/
theorem point_at (c : Dev nD) (t : Fin cfg1.N) (j : S5000x128.Idx) (i : S50000x128.Idx)
    (hi0 : (i 0).val = t.val * 5000 + (j 0).val) (hi1 : (i 1).val = (j 1).val) :
    k1_pay1 (F := Ideal) (iblk1 V c 0 t) (iblk1 V c 1 t) (iblk1 V c 2 t) (iblk1 V c 3 t) (iblk1 V c 4 t) (iblk1 V c 5 t) (iblk1 V c 6 t) (iblk1 V c 7 t) j
      = Cert.Gnn.upd (V c main_v4) (V c main_v13) (V c main_v22) (V c main_v24) (V c main_v26) (V c main_v28) (V c main_v27) (V c main_v29) i := by
  obtain ⟨p, q, rfl⟩ : ∃ (p : Fin 5000) (q : Fin 128), j = ix2 p q := ⟨j 0, j 1, eq_ix2 j⟩
  obtain ⟨n, q', rfl⟩ : ∃ (n : Fin 50000) (q' : Fin 128), i = ix2 n q' := ⟨i 0, i 1, eq_ix2 i⟩
  have hn : n.val = t.val * 5000 + p.val := hi0
  have hq : q = q' := (Fin.ext hi1).symm
  subst hq
  exact point_val (V c main_v4) (V c main_v13) (V c main_v22) (V c main_v24) (V c main_v26) (V c main_v28) (V c main_v27) (V c main_v29)
    (iblk1 V c 0 t) (iblk1 V c 1 t) (iblk1 V c 2 t) (iblk1 V c 3 t) (iblk1 V c 4 t) (iblk1 V c 5 t) (iblk1 V c 6 t) (iblk1 V c 7 t) n p q
    (fun l => blk0_apply V c t (ix2 p l) (ix2 n l) hn rfl)
    (fun l => blk1_apply V c t (ix2 p l) (ix2 n l) hn rfl)
    (blk2_apply V c t (ix2 p 0) (ix2 n 0) hn rfl)
    (blk3_apply V c t) (blk4_apply V c t) (blk5_apply V c t) (blk6_apply V c t) (blk7_apply V c t)

/-- What point `t` writes back is block `t` of the update of the arrays the region was entered with. -/
theorem flushed_eq (c : Dev nD) (t : Fin cfg1.N) :
    (dat1 (F := Ideal) V c).flushed 8 t = ((cfg1.win 8).blk t).view.read (Elt Ideal)
      (Cert.Gnn.upd (V c main_v4) (V c main_v13) (V c main_v22) (V c main_v24) (V c main_v26) (V c main_v28) (V c main_v27) (V c main_v29)) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, ⟨i0, i1⟩⟩ := idx_facts t
  funext j
  refine point_at V c t j (((cfg1.win 8).blk t).view.emb j) ?_ ?_
  · show win1_8.index t (0 : Fin 2) * 5000 + 1 * (j 0).val = t.val * 5000 + (j 0).val
    rw [i0]; omega
  · show win1_8.index t (1 : Fin 2) * 128 + 1 * (j 1).val = (j 1).val
    rw [i1]; omega

/-- An index of the array is in point `t`'s block iff each coordinate is in the block's range on its axis. -/
theorem mem_blk (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v30).slice (win1_8.rect t)).set ↔ _
  rw [View.set_slice_whole, Rect.mem_set_unit]
  exact Iff.rfl

/-- Every index of the array is in some point's block: node `r` is in block `r / 5000`. -/
theorem cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, ⟨i0, i1⟩⟩ := idx_facts t
  refine ⟨t, flush1_8 t, ?_⟩
  rw [mem_blk]
  intro a
  match a with
  | ⟨0, _⟩ =>
    show win1_8.index t (0 : Fin 2) * 5000 ≤ (i 0).val ∧ (i 0).val < win1_8.index t (0 : Fin 2) * 5000 + 5000
    rw [i0, ht]; omega
  | ⟨1, _⟩ =>
    show win1_8.index t (1 : Fin 2) * 128 ≤ (i 1).val ∧ (i 1).val < win1_8.index t (1 : Fin 2) * 128 + 128
    rw [i1]; omega

/-- After the second region its output array holds every node's update, computed from the arrays the region was
    entered with. -/
theorem value (c : Dev nD) :
    (dat1 (F := Ideal) V c).arrAt 8 cfg1.N
      = Cert.Gnn.upd (V c main_v4) (V c main_v13) (V c main_v22) (V c main_v24) (V c main_v26) (V c main_v28)
          (V c main_v27) (V c main_v29) :=
  (dat1 (F := Ideal) V c).arrAt_eq_of_cover 8 _ (fun t _ => flushed_eq V c t) cover

end Cert.KernelIdeal.Reg1

end
-- ==== Proof.LibGatherRow.lean ====
/-
  `stablehlo.gather` of whole ROWS of a rank-2 table at a column of start indices, read at an index.

  What `table[idx]` of a table `[N, D]` at an integer vector `idx : [R]` lowers to: a gather with offset_dims `[1]`,
  collapsed_slice_dims `[0]`, start_index_map `[0]`, slice_sizes `[1, D]` and index_vector_dim 1 over the indices as
  `[R, 1]`. Result element `(e, j)` is the table's entry in column `j` of the row whose number is the start index
  `idx[e, 0]` read as a signed integer and clamped into `[0, N − 1]` (every start index is clamped so that the slice
  fits). The row read depends on the indices and on `e` only, never on the table: a gather of rows commutes with every
  function applied row by row.
-/
import Idealize.ShloMosaic.PureOps
import Idealize.ShloMosaic.Lib.ValueIdx

noncomputable section

namespace Idealize.ShloMosaic.GatherRow

open Idealize.ShloMosaic Idealize.ShloMosaic.ValueIdx

variable {α : Type}

/-- Those dimension numbers for a table `[N, D]`, start indices `[R, 1]` and result `[R, D]`; their conditions are
    decided on a program's literal shapes. -/
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into `[0, N − 1]`. -/
def sel {N R w : Nat} (hN : 0 < N) (idx : IVec ⟨2, ![R, 1]⟩ w) (e : Fin R) : Fin N :=
  ⟨min (idx (ix2 e (0 : Fin 1))).toInt.toNat (N - 1), by omega⟩

/-- The start-indices index at which result index `y` reads its one start component: `[y 0, 0]` (the batch
    coordinate of `y` on axis 0, and `0` on the size-1 index-vector axis). -/
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

/-- Operand axis 1 is a kept axis of the row gather: neither collapsed nor batching. -/
theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

/-- THE GATHER READ AT `(e, j)`: the table at row `sel idx e` and column `j`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    -- axis 0 is in the start index map and collapsed: the coordinate is the clamped start alone
    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>
    -- axis 1 is outside the start index map and kept: the coordinate is the result's offset coordinate alone
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.TakeMask.lean ====
/-
  Taking rows with a range test. A source index c in [-50000, 50000) wraps to c + 50000 when negative and to c
  otherwise, which lies in [0, 49999]; so the test "0 ≤ wrapped ≤ 49999", reduced by `and` over its one column and
  spread over the 128 feature columns, is true at every element, and selecting by it between the gathered rows and the
  fill pattern gives the gathered rows.
-/
import proofs.«414464_j36455682408725_3_alg».proof.Proof.Gen.KernelIdeal
import proofs.«414464_j36455682408725_3_alg».proof.Proof.LibGatherRow
import Idealize.ShloMosaic.Lib.ReduceAll
import Idealize.ShloMosaic.Lib.StableHlo.Predicate

noncomputable section

namespace Cert.KernelIdeal.Take

open Cert.KernelIdeal Cert.KernelIdeal.Gen
open Idealize.ShloMosaic Idealize.ShloMosaic.ValueIdx

variable {F : FTy → Type} [FloatOps F]

/-- An edge's source index with a negative value counted from the end: `col + 50000` where `col < 0`, else `col`. -/
def wrap (colv : IVec S800000 32) : IVec S800000 32 :=
  select (cmpi .slt colv (broadcastInDim S800000 ![] bcast_S_S800000 (constantI S_ 32 0#32)))
    (addi colv (broadcastInDim S800000 ![] bcast_S_S800000 (constantI S_ 32 50000#32))) colv

/-- The wrapped indices as a column `[800000, 1]`: the gather's start indices. -/
def idx (colv : IVec S800000 32) : IVec S800000x1 32 :=
  broadcastInDim S800000x1 ![0] bcast_S800000_S800000x1_0 (wrap colv)

/-- Per element of the gathered array, whether its edge's wrapped index lies in `[0, 49999]`. -/
def inb (colv : IVec S800000 32) : IVec S800000x128 1 :=
  broadcastInDim S800000x128 ![0] bcast_S800000_S800000x128_0
    (Host.reduce IntOp.andi
      (andi (cmpi .sge (idx colv) (broadcastInDim S800000x1 ![] bcast_S_S800000x1 (constantI S_ 32 0#32)))
        (cmpi .sle (idx colv) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- Rows of `x` taken at the wrapped indices, an out-of-range index giving the fill pattern instead. -/
def take (x : FVec F S50000x128 .f32) (colv : IVec S800000 32) : FVec F S800000x128 .f32 :=
  select (inb colv) (Host.gather gather_S50000x128_S800000x1_S800000x128_1_0_n_n_0_1_1128 x (idx colv))
    (broadcastInDim S800000x128 ![] bcast_S_S800000x128 (constant S_ .f32 0x7FC00000#32))

/-! ### A reduction by `and` of an all-ones mask is one -/

/-- A left fold by `and` over one-bit words that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    refine foldl_andi_one f l _ ?_ (fun n hn => hl n (List.mem_cons_of_mem _ hn))
    exact IntOp.andi_eq_one.2 ⟨hi, hl a List.mem_cons_self⟩

/-- A `stablehlo.reduce` by `and`, from an initial value 1, of an operand that is 1 everywhere is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x _ _ hinit (fun n _ => hx n)

/-! ### The wrapped index lies in `[0, 49999]` -/

/-- For a 32-bit word `c` with `−50000 ≤ c < 50000` (signed), `c + 50000` where `c < 0` and `c` otherwise lies in
    `[0, 49999]`: below zero the sum `c + 50000` lies in `[0, 50000)` and does not wrap. -/
theorem wrap_word_range (c : BitVec 32) (hlo : (-50000 : Int) ≤ c.toInt) (hhi : c.toInt < 50000) :
    0 ≤ (Scalar.select (IntOp.cmpi .slt c 0#32) (IntOp.addi c 50000#32) c).toInt ∧
      (Scalar.select (IntOp.cmpi .slt c 0#32) (IntOp.addi c 50000#32) c).toInt ≤ 49999 := by
  have h0 : (0#32 : BitVec 32).toInt = 0 := by decide
  have h5 : (50000#32 : BitVec 32).toInt = 50000 := by decide
  by_cases hneg : c.toInt < 0
  · have hc : IntOp.cmpi .slt c 0#32 = 1#1 := IntOp.cmpi_slt.2 (by rw [h0]; exact hneg)
    rw [hc, select_one]
    have hadd : (IntOp.addi c 50000#32).toInt = c.toInt + 50000 := by
      show (c + 50000#32).toInt = _
      rw [BitVec.toInt_add, h5]
      exact Int.bmod_eq_of_le (by omega) (by omega)
    rw [hadd]; omega
  · have hc : IntOp.cmpi .slt c 0#32 = 0#1 :=
      eq_zero_of_ne_one (fun h => hneg (by have := IntOp.cmpi_slt.1 h; rw [h0] at this; exact this))
    rw [hc, select_zero]; omega

/-- The wrapped index of every edge lies in `[0, 49999]`. -/
theorem wrap_range (colv : IVec S800000 32)
    (hr : ∀ e : S800000.Idx, (-50000 : Int) ≤ (colv e).toInt ∧ (colv e).toInt < 50000) (e : S800000.Idx) :
    0 ≤ (wrap colv e).toInt ∧ (wrap colv e).toInt ≤ 49999 :=
  wrap_word_range (colv e) (hr e).1 (hr e).2

/-- So does every entry of the column of start indices: each is the wrapped index of an edge. -/
theorem idx_range (colv : IVec S800000 32)
    (hr : ∀ e : S800000.Idx, (-50000 : Int) ≤ (colv e).toInt ∧ (colv e).toInt < 50000) (i : S800000x1.Idx) :
    0 ≤ (idx colv i).toInt ∧ (idx colv i).toInt ≤ 49999 := by
  unfold idx broadcastInDim
  exact wrap_range colv hr _

/-- The range test `0 ≤ w ∧ w ≤ 49999` on the column of wrapped indices is 1 at every entry. -/
theorem test_one (colv : IVec S800000 32)
    (hr : ∀ e : S800000.Idx, (-50000 : Int) ≤ (colv e).toInt ∧ (colv e).toInt < 50000) (i : S800000x1.Idx) :
    andi (cmpi .sge (idx colv) (broadcastInDim S800000x1 ![] bcast_S_S800000x1 (constantI S_ 32 0#32)))
      (cmpi .sle (idx colv) (broadcastInDim S800000x1 ![0, 1] bcast_S1x1_S800000x1_0_1
        (broadcastInDim S1x1 ![1] bcast_S1_S1x1_1 (constantI S1 32 49999#32)))) i = 1#1 := by
  have h0 : (0#32 : BitVec 32).toInt = 0 := by decide
  have h4 : (49999#32 : BitVec 32).toInt = 49999 := by decide
  obtain ⟨hlo, hhi⟩ := idx_range colv hr i
  show IntOp.andi (IntOp.cmpi .sge (idx colv i) 0#32) (IntOp.cmpi .sle (idx colv i) 49999#32) = 1#1
  exact IntOp.andi_eq_one.2 ⟨IntOp.cmpi_sge.2 (by rw [h0]; exact hlo), IntOp.cmpi_sle.2 (by rw [h4]; exact hhi)⟩

/-- The range mask is 1 at every element of the gathered array. -/
theorem inb_one (colv : IVec S800000 32)
    (hr : ∀ e : S800000.Idx, (-50000 : Int) ≤ (colv e).toInt ∧ (colv e).toInt < 50000) (y : S800000x128.Idx) :
    inb colv y = 1#1 := by
  unfold inb broadcastInDim
  exact reduce_andi_one _ _ _ _ _ rfl (test_one colv hr)

/-- Where every index lies in `[-50000, 50000)` its wrapped value lies in `[0, 49999]`, the range test is true
    everywhere, and the take is the plain gather of rows. -/
theorem take_eq_gather (x : FVec F S50000x128 .f32) (colv : IVec S800000 32)
    (hr : ∀ e : S800000.Idx, (-50000 : Int) ≤ (colv e).toInt ∧ (colv e).toInt < 50000) :
    take x colv = Host.gather gather_S50000x128_S800000x1_S800000x128_1_0_n_n_0_1_1128 x (idx colv) := by
  funext y
  unfold take
  rw [select_apply, inb_one colv hr y, select_one]

/-- The gather of rows read at an index: row `GatherRow.sel` of the table. -/
theorem gather_apply {α : Type} (x : S50000x128.Idx → α) (i : IVec S800000x1 32) (y : S800000x128.Idx) :
    Host.gather gather_S50000x128_S800000x1_S800000x128_1_0_n_n_0_1_1128 x i y
      = x (ix2 (GatherRow.sel (N := 50000) (by decide) i ⟨(y 0).val, (y 0).isLt⟩) (⟨(y 1).val, (y 1).isLt⟩ : Fin 128)) := by
  exact GatherRow.gather_row_apply (N := 50000) (D := 128) (R := 800000) (by decide)
    gather_S50000x128_S800000x1_S800000x128_1_0_n_n_0_1_1128_wf x i y

end Cert.KernelIdeal.Take

end
-- ==== Proof.KHost.lean ====
/-
  The kernel program between and around its two regions. Before the first region the host cuts the edge array into
  its destination and source rows and lays the biases out as rows; a change of float format is the identity on the
  extended reals. Between the regions it takes message rows at the edges' source indices (negative indices counted from
  the end, an out-of-range index giving a fill pattern), sums them per destination node, counts the edges per
  destination, clamps the count below at one and takes its reciprocal, and cuts the first update weight into its two
  halves. The node features pass through the first region unchanged: an input window is never written back. Put
  together, the program's result is the update of the launch arrays' features, of the per-destination sum of the
  gathered messages and of the reciprocal clamped degree — with the take a plain gather of rows where every source
  index is in range.
-/
import proofs.«414464_j36455682408725_3_alg».proof.Proof.KRun
import proofs.«414464_j36455682408725_3_alg».proof.Proof.KReg0
import proofs.«414464_j36455682408725_3_alg».proof.Proof.KReg1
import proofs.«414464_j36455682408725_3_alg».proof.Proof.TakeMask
import proofs.«414464_j36455682408725_3_alg».proof.Proof.Spec
import Idealize.ShloMosaic.Lib.StableHlo.Run
import Idealize.ShloMosaic.Lib.Pipeline.Value

set_option maxRecDepth 16384

noncomputable section

namespace Cert.KernelIdeal.HostChain

open Cert.KernelIdeal Cert.KernelIdeal.Gen Cert.Gnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The edges' source indices: row 1 of the edge array as a vector. -/
abbrev colK (a1 : IVec S2x800000 32) : IVec S800000 32 :=
  shapeCast S800000 (extractStridedSlice S1x800000 ![1, 0] a1 slices_S2x800000_S1x800000_1_0) shapeCasts_S1x800000_S800000
/-- The edges' destination indices: row 0 of the edge array as a vector. -/
abbrev rowK (a1 : IVec S2x800000 32) : IVec S800000 32 :=
  shapeCast S800000 (extractStridedSlice S1x800000 ![0, 0] a1 slices_S2x800000_S1x800000_0_0) shapeCasts_S1x800000_S800000

/-! ## The first region's entry arrays, from the launch memory -/

theorem V1_v4 (c : Dev nD) : V1 m ρ c main_v4 = (m ((c.tc : Thread nD τ).loc main_arg0) : Arr2 50000 128) := by
  show StableHlo.after hostOps0 (W0 m ρ c) (Proc.devRef .tc main_v4) = _
  after_results
  rfl
theorem V1_v5 (c : Dev nD) : V1 m ρ c main_v5 = (m ((c.tc : Thread nD τ).loc main_arg2) : Arr2 128 128) := by
  show StableHlo.after hostOps0 (W0 m ρ c) (Proc.devRef .tc main_v5) = _
  after_results
  rfl
theorem V1_v6 (c : Dev nD) : V1 m ρ c main_v6 = (m ((c.tc : Thread nD τ).loc main_arg4) : Arr2 128 128) := by
  show StableHlo.after hostOps0 (W0 m ρ c) (Proc.devRef .tc main_v6) = _
  after_results
  rfl
theorem V1_v7 (c : Dev nD) : V1 m ρ c main_v7 = (shapeCast S1x128 (m ((c.tc : Thread nD τ).loc main_arg3)) shapeCasts_S128_S1x128 : Arr2 1 128) := by
  show StableHlo.after hostOps0 (W0 m ρ c) (Proc.devRef .tc main_v7) = _
  after_results
  rfl
theorem V1_v8 (c : Dev nD) : V1 m ρ c main_v8 = (shapeCast S1x128 (m ((c.tc : Thread nD τ).loc main_arg5)) shapeCasts_S128_S1x128 : Arr2 1 128) := by
  show StableHlo.after hostOps0 (W0 m ρ c) (Proc.devRef .tc main_v8) = _
  after_results
  rfl
theorem W1_v3 (c : Dev nD) : W1 m ρ c (Proc.devRef .tc main_v3) = colK (m ((c.tc : Thread nD τ).loc main_arg1)) := by
  show StableHlo.after hostOps0 (W0 m ρ c) (Proc.devRef .tc main_v3) = _
  after_results
  rfl
theorem W1_v1 (c : Dev nD) : W1 m ρ c (Proc.devRef .tc main_v1) = rowK (m ((c.tc : Thread nD τ).loc main_arg1)) := by
  show StableHlo.after hostOps0 (W0 m ρ c) (Proc.devRef .tc main_v1) = _
  after_results
  rfl

/-! ## After the first region -/

/-- The message array after the first region. -/
theorem W2_v9 (c : Dev nD) : W2 m ρ c (Proc.devRef .tc main_v9)
    = msg (V1 m ρ c main_v4) (V1 m ρ c main_v5) (V1 m ρ c main_v7) (V1 m ρ c main_v6) (V1 m ρ c main_v8) :=
  (W2_arr m ρ c 5).trans (Reg0.value (V1 m ρ) c)

/-- The node features pass through the first region unchanged (an input window is never written back). -/
theorem W2_v4 (c : Dev nD) : W2 m ρ c (Proc.devRef .tc main_v4) = V1 m ρ c main_v4 :=
  (W2_arr m ρ c 0).trans (((dat0 (V1 m ρ) c).arrAt_in 0 rfl cfg0.N).trans (A_eq0 (V1 m ρ) c 0))

theorem W2_v3 (c : Dev nD) : W2 m ρ c (Proc.devRef .tc main_v3) = W1 m ρ c (Proc.devRef .tc main_v3) :=
  W2_of_ne m ρ c main_v3 (by decide)
theorem W2_v1 (c : Dev nD) : W2 m ρ c (Proc.devRef .tc main_v1) = W1 m ρ c (Proc.devRef .tc main_v1) :=
  W2_of_ne m ρ c main_v1 (by decide)

/-! ## The host operations between the regions, from any contents `W` -/

section Between

/-- Contents carried to a buffer's own type and back are unchanged. -/
theorem ofBuf_toBuf {Val : EltTy → Type} {T : BufTy} (x : TRef sig T) (v : T.Contents Val) : x.ofBuf (x.toBuf v) = v := by
  obtain ⟨r, h, h1, h2⟩ := x
  subst h
  rfl

theorem toBuf_v10 (h1 h2 h3) (y : FVec Ideal S800000x128 .f32) :
    (TRef.of (T := ⟨S800000x128, .f32⟩) main_v10 h1 h2 h3).toBuf (Val := Elt Ideal) y = y := rfl
theorem ofBuf_v9 (h1 h2 h3) (y : FVec Ideal S50000x128 .f32) :
    (TRef.of (T := ⟨S50000x128, .f32⟩) main_v9 h1 h2 h3).ofBuf (Val := Elt Ideal) y = y := rfl
theorem ofBuf_v3 (h1 h2 h3) (y : IVec S800000 32) :
    (TRef.of (T := ⟨S800000, .i32⟩) main_v3 h1 h2 h3).ofBuf (Val := Elt Ideal) y = y := rfl

/-- The printed take, over any table and any index vector, is the take of the specification module. -/
theorem take_unfold (v9 : FVec Ideal S50000x128 .f32) (v3 : IVec S800000 32) :
    select
        (broadcastInDim S800000x128 ![0] bcast_S800000_S800000x128_0
          (Host.reduce IntOp.andi
            (andi
              (cmpi CmpIPredicate.sge
                (broadcastInDim S800000x1 ![0] bcast_S800000_S800000x1_0
                  (select (cmpi CmpIPredicate.slt v3 (broadcastInDim S800000 ![] bcast_S_S800000 (constantI S_ 32 0#32)))
                    (addi v3 (broadcastInDim S800000 ![] bcast_S_S800000 (constantI S_ 32 50000#32))) v3))
                (broadcastInDim S800000x1 ![] bcast_S_S800000x1 (constantI S_ 32 0#32)))
              (cmpi CmpIPredicate.sle
                (broadcastInDim S800000x1 ![0] bcast_S800000_S800000x1_0
                  (select (cmpi CmpIPredicate.slt v3 (broadcastInDim S800000 ![] bcast_S_S800000 (constantI S_ 32 0#32)))
                    (addi v3 (broadcastInDim S800000 ![] bcast_S_S800000 (constantI S_ 32 50000#32))) v3))
                (broadcastInDim S800000x1 ![0, 1] bcast_S1x1_S800000x1_0_1
                  (broadcastInDim S1x1 ![1] bcast_S1_S1x1_1 (constantI S1 32 49999#32)))))
            (constantI S_ 1 1#1) reducesTo_S800000x1_S800000_d1 h_S_))
        (Host.gather gather_S50000x128_S800000x1_S800000x128_1_0_n_n_0_1_1128 v9
          (broadcastInDim S800000x1 ![0] bcast_S800000_S800000x1_0
            (select (cmpi CmpIPredicate.slt v3 (broadcastInDim S800000 ![] bcast_S_S800000 (constantI S_ 32 0#32)))
              (addi v3 (broadcastInDim S800000 ![] bcast_S_S800000 (constantI S_ 32 50000#32))) v3)))
        (broadcastInDim S800000x128 ![] bcast_S_S800000x128 (constant S_ FTy.f32 0x7FC00000#32))
      = Take.take (F := Ideal) v9 v3 := rfl

variable (W : Valuation τ sig (Elt Ideal))

/-- The gathered messages: rows of the message array taken at the edges' source indices. -/
theorem take_v10 : StableHlo.after hostOps1 W (Proc.devRef .tc main_v10)
    = Take.take (F := Ideal) (W (Proc.devRef .tc main_v9)) (W (Proc.devRef .tc main_v3)) := by
  after_results_simp
  simp only [ofBuf_toBuf, toBuf_v10, ofBuf_v9, ofBuf_v3]
  exact take_unfold _ _
theorem take_v1 : StableHlo.after hostOps1 W (Proc.devRef .tc main_v1) = W (Proc.devRef .tc main_v1) := by
  after_results_simp
theorem take_v4 : StableHlo.after hostOps1 W (Proc.devRef .tc main_v4) = W (Proc.devRef .tc main_v4) := by
  after_results_simp
theorem take_arg6 : StableHlo.after hostOps1 W (Proc.devRef .tc main_arg6) = W (Proc.devRef .tc main_arg6) := by
  after_results_simp
theorem take_arg7 : StableHlo.after hostOps1 W (Proc.devRef .tc main_arg7) = W (Proc.devRef .tc main_arg7) := by
  after_results_simp
theorem take_arg8 : StableHlo.after hostOps1 W (Proc.devRef .tc main_arg8) = W (Proc.devRef .tc main_arg8) := by
  after_results_simp
theorem take_arg9 : StableHlo.after hostOps1 W (Proc.devRef .tc main_arg9) = W (Proc.devRef .tc main_arg9) := by
  after_results_simp

/-- The per-node sum of the gathered messages over the edges that end at the node. -/
def aggOf (rowv : IVec S800000 32) (me : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 rowv) me
/-- The per-node count of the edges that end at the node, clamped below at one. -/
def degOf (rowv : IVec S800000 32) : FVec Ideal S50000 .f32 :=
  maximumf (Host.scatterAdd scatter_S50000_S800000x1_S800000_n_0_0_1
      (broadcastInDim S50000 ![] bcast_S_S50000 (constant S_ .f32 0x00000000#32))
      (broadcastInDim S800000x1 ![0] bcast_S800000_S800000x1_0 rowv)
      (broadcastInDim S800000 ![] bcast_S_S800000 (constant S_ .f32 0x3F800000#32)))
    (broadcastInDim S50000 ![] bcast_S_S50000 (constant S_ .f32 0x3F800000#32))
/-- The reciprocal of the clamped count, as a column. -/
def invOf (rowv : IVec S800000 32) : FVec Ideal S50000x1 .f32 :=
  shapeCast S50000x1 (Host.divf (broadcastInDim S50000 ![] bcast_S_S50000 (constant S_ .f32 0x3F800000#32)) (degOf rowv))
    shapeCasts_S50000_S50000x1

theorem upd_v13 : StableHlo.after hostOps1_1 W (Proc.devRef .tc main_v13)
    = aggOf (W (Proc.devRef .tc main_v1)) (W (Proc.devRef .tc main_v10)) := by
  after_results_simp
  rfl
theorem upd_v22 : StableHlo.after hostOps1_1 W (Proc.devRef .tc main_v22) = invOf (W (Proc.devRef .tc main_v1)) := by
  after_results_simp
  rfl
theorem upd_v4 : StableHlo.after hostOps1_1 W (Proc.devRef .tc main_v4) = W (Proc.devRef .tc main_v4) := by
  after_results_simp
theorem upd_v24 : StableHlo.after hostOps1_1 W (Proc.devRef .tc main_v24)
    = (extractStridedSlice S128x128 ![0, 0] (W (Proc.devRef .tc main_arg6)) slices_S256x128_S128x128_0_0 : Arr2 128 128) := by
  after_results_simp
  rfl
theorem upd_v26 : StableHlo.after hostOps1_1 W (Proc.devRef .tc main_v26)
    = (extractStridedSlice S128x128 ![128, 0] (W (Proc.devRef .tc main_arg6)) slices_S256x128_S128x128_128_0 : Arr2 128 128) := by
  after_results_simp
  rfl
theorem upd_v27 : StableHlo.after hostOps1_1 W (Proc.devRef .tc main_v27) = (W (Proc.devRef .tc main_arg8) : Arr2 128 128) := by
  after_results_simp
  rfl
theorem upd_v28 : StableHlo.after hostOps1_1 W (Proc.devRef .tc main_v28)
    = (shapeCast S1x128 (W (Proc.devRef .tc main_arg7)) shapeCasts_S128_S1x128 : Arr2 1 128) := by
  after_results_simp
  rfl
theorem upd_v29 : StableHlo.after hostOps1_1 W (Proc.devRef .tc main_v29)
    = (shapeCast S1x128 (W (Proc.devRef .tc main_arg9)) shapeCasts_S128_S1x128 : Arr2 1 128) := by
  after_results_simp
  rfl

end Between

/-! ## The second region's entry arrays, and the result -/

section Entry

variable (c : Dev nD)

theorem W2_arg6 : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results)
theorem W2_arg7 : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results)
theorem W2_arg8 : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results)
theorem W2_arg9 : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results)

/-- The node features reach the second region as launched (a change of float format is the identity here). -/
theorem V4_v4 : V4 m ρ c main_v4 = (m ((c.tc : Thread nD τ).loc main_arg0) : Arr2 50000 128) := by
  show StableHlo.after hostOps1_1 (StableHlo.after hostOps1 (W2 m ρ c)) (Proc.devRef .tc main_v4) = _
  rw [upd_v4, take_v4, W2_v4, V1_v4]

/-- The aggregate the second region is entered with: the per-destination sum of the gathered messages, the gather
    plain where every source index is in range. -/
theorem V4_v13 (hr : ∀ e : S800000.Idx, (-50000 : Int) ≤ (colK (m ((c.tc : Thread nD τ).loc main_arg1)) e).toInt
      ∧ (colK (m ((c.tc : Thread nD τ).loc main_arg1)) e).toInt < 50000) :
    V4 m ρ c main_v13
      = aggOf (rowK (m ((c.tc : Thread nD τ).loc main_arg1)))
          (Host.gather gather_S50000x128_S800000x1_S800000x128_1_0_n_n_0_1_1128
            (msg (m ((c.tc : Thread nD τ).loc main_arg0)) (m ((c.tc : Thread nD τ).loc main_arg2))
              (shapeCast S1x128 (m ((c.tc : Thread nD τ).loc main_arg3)) shapeCasts_S128_S1x128)
              (m ((c.tc : Thread nD τ).loc main_arg4))
              (shapeCast S1x128 (m ((c.tc : Thread nD τ).loc main_arg5)) shapeCasts_S128_S1x128))
            (Take.idx (colK (m ((c.tc : Thread nD τ).loc main_arg1))))) := by
  show StableHlo.after hostOps1_1 (StableHlo.after hostOps1 (W2 m ρ c)) (Proc.devRef .tc main_v13) = _
  rw [upd_v13, take_v1, take_v10, W2_v1, W1_v1, W2_v3, W1_v3, W2_v9, V1_v4, V1_v5, V1_v6, V1_v7, V1_v8,
    Take.take_eq_gather _ _ hr]

theorem V4_v22 : V4 m ρ c main_v22 = invOf (rowK (m ((c.tc : Thread nD τ).loc main_arg1))) := by
  show StableHlo.after hostOps1_1 (StableHlo.after hostOps1 (W2 m ρ c)) (Proc.devRef .tc main_v22) = _
  rw [upd_v22, take_v1, W2_v1, W1_v1]

theorem V4_v24 : V4 m ρ c main_v24
    = (extractStridedSlice S128x128 ![0, 0] (m ((c.tc : Thread nD τ).loc main_arg6)) slices_S256x128_S128x128_0_0 : Arr2 128 128) := by
  show StableHlo.after hostOps1_1 (StableHlo.after hostOps1 (W2 m ρ c)) (Proc.devRef .tc main_v24) = _
  rw [upd_v24, take_arg6, W2_arg6]
theorem V4_v26 : V4 m ρ c main_v26
    = (extractStridedSlice S128x128 ![128, 0] (m ((c.tc : Thread nD τ).loc main_arg6)) slices_S256x128_S128x128_128_0 : Arr2 128 128) := by
  show StableHlo.after hostOps1_1 (StableHlo.after hostOps1 (W2 m ρ c)) (Proc.devRef .tc main_v26) = _
  rw [upd_v26, take_arg6, W2_arg6]
theorem V4_v27 : V4 m ρ c main_v27 = (m ((c.tc : Thread nD τ).loc main_arg8) : Arr2 128 128) := by
  show StableHlo.after hostOps1_1 (StableHlo.after hostOps1 (W2 m ρ c)) (Proc.devRef .tc main_v27) = _
  rw [upd_v27, take_arg8, W2_arg8]
theorem V4_v28 : V4 m ρ c main_v28
    = (shapeCast S1x128 (m ((c.tc : Thread nD τ).loc main_arg7)) shapeCasts_S128_S1x128 : Arr2 1 128) := by
  show StableHlo.after hostOps1_1 (StableHlo.after hostOps1 (W2 m ρ c)) (Proc.devRef .tc main_v28) = _
  rw [upd_v28, take_arg7, W2_arg7]
theorem V4_v29 : V4 m ρ c main_v29
    = (shapeCast S1x128 (m ((c.tc : Thread nD τ).loc main_arg9)) shapeCasts_S128_S1x128 : Arr2 1 128) := by
  show StableHlo.after hostOps1_1 (StableHlo.after hostOps1 (W2 m ρ c)) (Proc.devRef .tc main_v29) = _
  rw [upd_v29, take_arg9, W2_arg9]

/-- THE KERNEL'S RESULT as one function of the launch arrays, where every source index is in range. -/
theorem result (hr : ∀ e : S800000.Idx, (-50000 : Int) ≤ (colK (m ((c.tc : Thread nD τ).loc main_arg1)) e).toInt
      ∧ (colK (m ((c.tc : Thread nD τ).loc main_arg1)) e).toInt < 50000) :
    W5 m ρ c (Proc.devRef .tc main_v30)
      = upd (m ((c.tc : Thread nD τ).loc main_arg0))
          (aggOf (rowK (m ((c.tc : Thread nD τ).loc main_arg1)))
            (Host.gather gather_S50000x128_S800000x1_S800000x128_1_0_n_n_0_1_1128
              (msg (m ((c.tc : Thread nD τ).loc main_arg0)) (m ((c.tc : Thread nD τ).loc main_arg2))
                (shapeCast S1x128 (m ((c.tc : Thread nD τ).loc main_arg3)) shapeCasts_S128_S1x128)
                (m ((c.tc : Thread nD τ).loc main_arg4))
                (shapeCast S1x128 (m ((c.tc : Thread nD τ).loc main_arg5)) shapeCasts_S128_S1x128))
              (Take.idx (colK (m ((c.tc : Thread nD τ).loc main_arg1))))))
          (invOf (rowK (m ((c.tc : Thread nD τ).loc main_arg1))))
          (extractStridedSlice S128x128 ![0, 0] (m ((c.tc : Thread nD τ).loc main_arg6)) slices_S256x128_S128x128_0_0)
          (extractStridedSlice S128x128 ![128, 0] (m ((c.tc : Thread nD τ).loc main_arg6)) slices_S256x128_S128x128_128_0)
          (shapeCast S1x128 (m ((c.tc : Thread nD τ).loc main_arg7)) shapeCasts_S128_S1x128)
          (m ((c.tc : Thread nD τ).loc main_arg8))
          (shapeCast S1x128 (m ((c.tc : Thread nD τ).loc main_arg9)) shapeCasts_S128_S1x128) := by
  refine ((W5_arr m ρ c 8).trans (Reg1.value (V4 m ρ) c)).trans ?_
  rw [V4_v4, V4_v13 m ρ c hr, V4_v22, V4_v24, V4_v26, V4_v27, V4_v28, V4_v29]

end Entry

end Cert.KernelIdeal.HostChain

end
-- ==== Proof.PreDecode.lean ====
/-
  The added conjunct of the precondition read back: the printed predicate is a conjunction whose last member is the
  `and` over all 800000 edges of "source index ≥ -50000 and source index < 50000" as signed 32-bit comparisons; where
  the predicate is true every source index, read as a signed integer, lies in [-50000, 50000).
-/
import proofs.«414464_j36455682408725_3_alg».proof.Pre_finite_inputs
import proofs.«414464_j36455682408725_3_alg».proof.Proof.Gen.Pre_finite_inputs
import Idealize.ShloMosaic.PureOps.Ideal
import Idealize.ShloMosaic.Lib.ReduceAll
import Idealize.ShloMosaic.Lib.StableHlo.Predicate

noncomputable section

namespace Cert.Pre_finite_inputs.Decode

open Cert.Pre_finite_inputs Cert.Pre_finite_inputs.Facts Idealize.ShloMosaic

/-- The edges' source indices: row 1 of the edge array as a vector. -/
abbrev colOf (a1 : IVec S2x800000 32) : IVec S800000 32 :=
  shapeCast S800000 (extractStridedSlice S1x800000 ![1, 0] a1 slices_S2x800000_S1x800000_1_0) shapeCasts_S1x800000_S800000

/-- The word `4294917296` read as a signed 32-bit integer is `-50000`. -/
theorem toInt_lo : (4294917296#32 : BitVec 32).toInt = -50000 := by decide

/-- The word `50000` read as a signed 32-bit integer is `50000`. -/
theorem toInt_hi : (50000#32 : BitVec 32).toInt = 50000 := by decide

/-- A rank-0 array has exactly one index. -/
theorem subsingleton_scalar_idx : Subsingleton S_.Idx := ⟨fun a b => funext fun d => d.elim0⟩

/-- The precondition is a conjunction; its last conjunct is the `and`-reduction over all edges of the
    elementwise test `-50000 ≤ col ∧ col < 50000`, and it holds. -/
theorem range_conjunct (a0 : FVec Ideal S50000x128 .f32) (a1 : IVec S2x800000 32) (a2 : FVec Ideal S128x128 .f32)
    (a3 : FVec Ideal S128 .f32) (a4 : FVec Ideal S128x128 .f32) (a5 : FVec Ideal S128 .f32)
    (a6 : FVec Ideal S256x128 .f32) (a7 : FVec Ideal S128 .f32) (a8 : FVec Ideal S128x128 .f32)
    (a9 : FVec Ideal S128 .f32)
    (h : Cert.Pre_finite_inputs.fn (F := Ideal) a0 a1 a2 a3 a4 a5 a6 a7 a8 a9 = fun _ => 1#1) :
    Host.reduce IntOp.andi
      (andi (cmpi .sge (colOf a1) (broadcastInDim S800000 ![] bcast_S_S800000 (constantI S_ 32 4294917296#32)))
            (cmpi .slt (colOf a1) (broadcastInDim S800000 ![] bcast_S_S800000 (constantI S_ 32 50000#32))))
      (constantI S_ 1 1#1) reducesTo_S800000_S_d0 h_S_ (fun a => a.elim0 : S_.Idx) = 1#1 := by
  have h0 := congrFun h (fun a => a.elim0 : S_.Idx)
  dsimp only [fn, fn_part1, fn_part2, fn_part3] at h0
  exact (IntOp.andi_eq_one.1 h0).2

/-- A scalar broadcast to the edge vector reads the scalar at every edge. -/
theorem bcast_const_apply (c : BitVec 32) (e : S800000.Idx) :
    broadcastInDim S800000 ![] bcast_S_S800000 (constantI S_ 32 c) e = c := rfl

/-- The precondition's last conjunct, decoded: every source index lies in `[-50000, 50000)`. -/
theorem col_range (a0 : FVec Ideal S50000x128 .f32) (a1 : IVec S2x800000 32) (a2 : FVec Ideal S128x128 .f32)
    (a3 : FVec Ideal S128 .f32) (a4 : FVec Ideal S128x128 .f32) (a5 : FVec Ideal S128 .f32)
    (a6 : FVec Ideal S256x128 .f32) (a7 : FVec Ideal S128 .f32) (a8 : FVec Ideal S128x128 .f32)
    (a9 : FVec Ideal S128 .f32)
    (h : Cert.Pre_finite_inputs.fn (F := Ideal) a0 a1 a2 a3 a4 a5 a6 a7 a8 a9 = fun _ => 1#1) :
    ∀ e : S800000.Idx, (-50000 : Int) ≤ (colOf a1 e).toInt ∧ (colOf a1 e).toInt < 50000 := by
  intro e
  haveI := subsingleton_scalar_idx
  -- the reduction by `and` is 1, so the test is 1 at every edge
  have he := Host.reduce_andi_all _ _ _ _ _ (range_conjunct a0 a1 a2 a3 a4 a5 a6 a7 a8 a9 h) e
  -- the test at an edge is the `and` of the two comparisons
  obtain ⟨hge, hlt⟩ := IntOp.andi_eq_one.1 he
  -- each comparison, read as an inequality of signed values
  have hge' := IntOp.cmpi_sge.1 hge
  have hlt' := IntOp.cmpi_slt.1 hlt
  rw [bcast_const_apply, toInt_lo] at hge'
  rw [bcast_const_apply, toInt_hi] at hlt'
  exact ⟨hge', hlt'⟩

end Cert.Pre_finite_inputs.Decode

end
-- ==== Proof.RefEdge.lean ====
/-
  The reference's per-edge messages. It gathers the feature row each edge's wrapped source index selects and applies
  the two dense layers to the gathered rows; read index by index through its stages this is the message perceptron of
  the selected feature row, each matrix product a sum over the 128 contracted columns and each bias read through its
  two broadcasts.
-/
import proofs.«414464_j36455682408725_3_alg».proof.Proof.Gen.ReferenceIdeal.Run
import proofs.«414464_j36455682408725_3_alg».proof.Proof.Gen.ReferenceIdeal.Read
import proofs.«414464_j36455682408725_3_alg».proof.Proof.Spec
import proofs.«414464_j36455682408725_3_alg».proof.Proof.LibGatherRow

noncomputable section

namespace Cert.ReferenceIdeal.RefEdge

open Cert.ReferenceIdeal Cert.ReferenceIdeal.Gen Cert.ReferenceIdeal.Read
open Idealize.ShloMosaic Idealize.ShloMosaic.ValueIdx Cert.Gnn

/-- The reference's gather of rows read at an index: row `GatherRow.sel` of the table. -/
theorem gather_apply {α : Type} (x : S50000x128.Idx → α) (i : IVec S800000x1 32) (y : S800000x128.Idx) :
    Host.gather gather_S50000x128_S800000x1_S800000x128_1_0_n_n_0_1_1128 x i y
      = x (ix2 (GatherRow.sel (N := 50000) (by decide) i ⟨(y 0).val, (y 0).isLt⟩) (⟨(y 1).val, (y 1).isLt⟩ : Fin 128)) := by
  show Host.gather (GatherRow.dims 50000 128 800000 gather_S50000x128_S800000x1_S800000x128_1_0_n_n_0_1_1128_wf) x i y = _
  exact GatherRow.gather_row_apply _ _ x i y

/-- The left operand's index of the first contraction, at result index `j` and summation index `k`: `[j 0, k]`. -/
theorem lidx11_eq (j : S800000x128.Idx) (k : Fin 128) : lidx_main_v11 j k = ix2 (rowOfIdx j) k :=
  funext fun a => Fin.ext (by match a with | ⟨0, _⟩ => rfl | ⟨1, _⟩ => rfl)

/-- The right operand's index of the first contraction: `[k, j 1]`. -/
theorem ridx11_eq (j : S800000x128.Idx) (k : Fin 128) : ridx_main_v11 j k = ix2 k (colOfIdx j) :=
  funext fun a => Fin.ext (by match a with | ⟨0, _⟩ => rfl | ⟨1, _⟩ => rfl)

/-- The first bias read through its two broadcasts: entry `j 1` of the vector. -/
theorem bias1_apply (x3 : FVec Ideal S128 .f32) (j : S800000x128.Idx) :
    val_main_v13 (F := Ideal) x3 j = asRow x3 (ix2 0 (colOfIdx j)) := by
  rw [val_main_v13_apply, val_main_v12_apply]
  unfold asRow
  congr 1
  funext a
  match a with | ⟨0, _⟩ => rfl

/-- The hidden layer (stage `%15`) at an index. -/
theorem hidden_apply (x0 : FVec Ideal S50000x128 .f32) (x1 : IVec S2x800000 32) (x2 : FVec Ideal S128x128 .f32)
    (x3 : FVec Ideal S128 .f32) (j : S800000x128.Idx) :
    val_main_v15 (F := Ideal) x0 x1 x2 x3 j
      = relu (dense (fun l => x0 (ix2 (GatherRow.sel (N := 50000) (by decide) (val_main_v9 (F := Ideal) x1) (rowOfIdx j)) l))
          x2 (asRow x3) (colOfIdx j)) := by
  rw [val_main_v15_apply, val_main_v14_apply, val_main_v11_apply, bias1_apply, val_main_call0_v0_apply,
    val_main_call0_cst_apply]
  unfold relu dense
  rw [Ideal.maximumf_def, Ideal.addf_def, Ideal.ofBits_def, Ideal.ofBits_zero_f32]
  congr 2
  refine Finset.sum_congr rfl fun k _ => ?_
  rw [ridx11_eq]
  unfold val_main_v10
  rw [gather_apply]

/-- The left operand's index of the second contraction: `[i 0, k]`. -/
theorem lidx16_eq (i : S800000x128.Idx) (k : Fin 128) : lidx_main_v16 i k = ix2 (rowOfIdx i) k :=
  funext fun a => Fin.ext (by match a with | ⟨0, _⟩ => rfl | ⟨1, _⟩ => rfl)

/-- The right operand's index of the second contraction: `[k, i 1]`. -/
theorem ridx16_eq (i : S800000x128.Idx) (k : Fin 128) : ridx_main_v16 i k = ix2 k (colOfIdx i) :=
  funext fun a => Fin.ext (by match a with | ⟨0, _⟩ => rfl | ⟨1, _⟩ => rfl)

/-- The second bias read through its two broadcasts: entry `i 1` of the vector. -/
theorem bias2_apply (x5 : FVec Ideal S128 .f32) (i : S800000x128.Idx) :
    val_main_v18 (F := Ideal) x5 i = asRow x5 (ix2 0 (colOfIdx i)) := by
  rw [val_main_v18_apply, val_main_v17_apply]
  unfold asRow
  congr 1
  funext a
  match a with | ⟨0, _⟩ => rfl

/-- The reference's per-edge messages (its stage `%20`): the message perceptron of the source row each edge's
    wrapped, clamped index selects. -/
theorem edge_msgs (x0 : FVec Ideal S50000x128 .f32) (x1 : IVec S2x800000 32) (x2 : FVec Ideal S128x128 .f32)
    (x3 : FVec Ideal S128 .f32) (x4 : FVec Ideal S128x128 .f32) (x5 : FVec Ideal S128 .f32) :
    val_main_v20 (F := Ideal) x0 x1 x2 x3 x4 x5
      = fun i => mlpRow (fun l => x0 (ix2 (GatherRow.sel (N := 50000) (by decide) (val_main_v9 (F := Ideal) x1) (rowOfIdx i)) l))
          x2 (asRow x3) x4 (asRow x5) (colOfIdx i) := by
  funext i
  rw [val_main_v20_apply, val_main_v19_apply, val_main_v16_apply, bias2_apply, val_main_call1_v0_apply,
    val_main_call1_cst_apply, mlpRow, relu, dense, Ideal.maximumf_def, Ideal.addf_def, Ideal.ofBits_def,
    Ideal.ofBits_zero_f32]
  congr 2
  refine Finset.sum_congr rfl fun k _ => ?_
  rw [hidden_apply, lidx16_eq, ridx16_eq]

end Cert.ReferenceIdeal.RefEdge

end
-- ==== Proof.RefFinal.lean ====
/-
  The reference's last stages. It joins each node's feature row with its aggregate divided by the clamped degree into
  256 columns, multiplies by the first update weight, adds the bias, rectifies, multiplies by the second weight and
  adds its bias. A sum over the 256 joined columns is the sum over the first 128 (the node's own row against the
  weight's rows 0–127) plus the sum over the last 128 (the divided aggregate against rows 128–255).
-/
import proofs.«414464_j36455682408725_3_alg».proof.Proof.Gen.ReferenceIdeal.Run
import proofs.«414464_j36455682408725_3_alg».proof.Proof.Gen.ReferenceIdeal.Read
import proofs.«414464_j36455682408725_3_alg».proof.Proof.Spec
import proofs.«414464_j36455682408725_3_alg».proof.Proof.LibGatherRow

noncomputable section

namespace Cert.ReferenceIdeal.RefFinal

open Cert.ReferenceIdeal Cert.ReferenceIdeal.Gen Cert.ReferenceIdeal.Read
open Idealize.ShloMosaic Idealize.ShloMosaic.ValueIdx Cert.Gnn
open scoped BigOperators

/-- Two arrays of 128 columns joined along the columns, read in the first half: the first array's column. -/
theorem concat_left {α : Type} (x y : S50000x128.Idx → α) (n : Fin 50000) (l : Fin 128) :
    concatenate S50000x256 1 [⟨S50000x128, x⟩, ⟨S50000x128, y⟩] concatenates_S50000x128_S50000x128_S50000x256_d1
      (ix2 n (Fin.castAdd 128 l)) = x (ix2 n l) :=
  concatenate_pair_apply_left (t := S50000x256) (s₁ := S50000x128) (s₂ := S50000x128) (1 : Fin 2) x y _ _ rfl (ix2 n l)
    (fun b => match b with | ⟨0, _⟩ => rfl | ⟨1, _⟩ => rfl)

/-- Two arrays of 128 columns joined along the columns, read in the second half: the second array's column. -/
theorem concat_right {α : Type} (x y : S50000x128.Idx → α) (n : Fin 50000) (l : Fin 128) :
    concatenate S50000x256 1 [⟨S50000x128, x⟩, ⟨S50000x128, y⟩] concatenates_S50000x128_S50000x128_S50000x256_d1
      (ix2 n (Fin.natAdd 128 l)) = y (ix2 n l) :=
  concatenate_pair_apply_right (t := S50000x256) (s₁ := S50000x128) (s₂ := S50000x128) (1 : Fin 2) x y _ _ rfl rfl (ix2 n l)
    (fun b hb => match b with | ⟨0, _⟩ => rfl | ⟨1, _⟩ => absurd rfl hb)
    (by show l.val + 128 = 128 + l.val; omega)

/-- The output layer's bias vector spread over the rows, read at row `n`, column `j`: its entry `j`. -/
theorem bias41 (x9 : FVec Ideal S128 .f32) (n : Fin 50000) (j : Fin 128) :
    val_main_v41 (F := Ideal) x9 (ix2 n j) = x9 (ix1 j) := by
  rw [val_main_v41_apply, val_main_v40_apply]
  exact congrArg x9 (funext fun a => Fin.ext (by match a with | ⟨0, _⟩ => rfl))

/-- The hidden layer's bias vector spread over the rows, read at row `n`, column `k`: its entry `k`. -/
theorem bias36 (x7 : FVec Ideal S128 .f32) (n : Fin 50000) (k : Fin 128) :
    val_main_v36 (F := Ideal) x7 (ix2 n k) = x7 (ix1 k) := by
  rw [val_main_v36_apply, val_main_v35_apply]
  exact congrArg x7 (funext fun a => Fin.ext (by match a with | ⟨0, _⟩ => rfl))

/-- The clamped degree spread over the columns, read at row `n`: its entry `n`. -/
theorem deg31 (x1 : IVec S2x800000 32) (n : Fin 50000) (l : Fin 128) :
    val_main_v31 (F := Ideal) x1 (ix2 n l) = val_main_v29 (F := Ideal) x1 (ix1 n) := by
  rw [val_main_v31_apply, val_main_v30_apply]
  exact congrArg (val_main_v29 (F := Ideal) x1) (funext fun a => Fin.ext (by match a with | ⟨0, _⟩ => rfl))

/-- The hidden layer of the update (the sum over the 256 joined columns split into its two halves, plus the bias),
    read at row `n`, column `k`. -/
theorem hidden37 (x0 : FVec Ideal S50000x128 .f32) (x1 : IVec S2x800000 32) (x2 : FVec Ideal S128x128 .f32)
    (x3 : FVec Ideal S128 .f32) (x4 : FVec Ideal S128x128 .f32) (x5 : FVec Ideal S128 .f32)
    (x6 : FVec Ideal S256x128 .f32) (x7 : FVec Ideal S128 .f32) (n : Fin 50000) (k : Fin 128) :
    val_main_v37 (F := Ideal) x0 x1 x2 x3 x4 x5 x6 x7 (ix2 n k)
      = hiddenR x0 (val_main_v23 (F := Ideal) x0 x1 x2 x3 x4 x5) (val_main_v29 (F := Ideal) x1) x6 x7 n k := by
  rw [val_main_v37_apply, val_main_v34_apply, bias36, Ideal.addf_def]
  unfold hiddenR val_main_v33
  refine congrArg₂ (· + ·) ?_ rfl
  refine (Fin.sum_univ_add (a := 128) (b := 128) _).trans ?_
  refine congrArg₂ (· + ·) ?_ ?_
  · refine Finset.sum_congr rfl fun l _ => ?_
    have el : lidx_main_v34 (ix2 n k) (Fin.castAdd 128 l) = ix2 n (Fin.castAdd 128 l) :=
      funext fun a => Fin.ext (by match a with | ⟨0, _⟩ => rfl | ⟨1, _⟩ => rfl)
    have er : ridx_main_v34 (ix2 n k) (Fin.castAdd 128 l) = ix2 (Fin.castAdd 128 l) k :=
      funext fun a => Fin.ext (by match a with | ⟨0, _⟩ => rfl | ⟨1, _⟩ => rfl)
    rw [el, er, concat_left]
  · refine Finset.sum_congr rfl fun l _ => ?_
    have el : lidx_main_v34 (ix2 n k) (Fin.natAdd 128 l) = ix2 n (Fin.natAdd 128 l) :=
      funext fun a => Fin.ext (by match a with | ⟨0, _⟩ => rfl | ⟨1, _⟩ => rfl)
    have er : ridx_main_v34 (ix2 n k) (Fin.natAdd 128 l) = ix2 (Fin.natAdd 128 l) k :=
      funext fun a => Fin.ext (by match a with | ⟨0, _⟩ => rfl | ⟨1, _⟩ => rfl)
    rw [el, er, concat_right, val_main_v32_apply, deg31, Ideal.hostDivf_def]

/-- The reference's result (its stage `%42`) from its aggregate (stage `%23`) and clamped degree (stage `%29`). -/
theorem final (x0 : FVec Ideal S50000x128 .f32) (x1 : IVec S2x800000 32) (x2 : FVec Ideal S128x128 .f32)
    (x3 : FVec Ideal S128 .f32) (x4 : FVec Ideal S128x128 .f32) (x5 : FVec Ideal S128 .f32)
    (x6 : FVec Ideal S256x128 .f32) (x7 : FVec Ideal S128 .f32) (x8 : FVec Ideal S128x128 .f32)
    (x9 : FVec Ideal S128 .f32) :
    val_main_v42 (F := Ideal) x0 x1 x2 x3 x4 x5 x6 x7 x8 x9
      = updR x0 (val_main_v23 (F := Ideal) x0 x1 x2 x3 x4 x5) (val_main_v29 (F := Ideal) x1) x6 x7 x8 x9 := by
  funext i
  obtain ⟨n, j, rfl⟩ : ∃ (n : Fin 50000) (j : Fin 128), i = ix2 n j :=
    ⟨⟨(i 0).val, (i 0).isLt⟩, ⟨(i 1).val, (i 1).isLt⟩, eq_ix2 i⟩
  rw [val_main_v42_apply, val_main_v39_apply, bias41, Ideal.addf_def]
  show _ = (∑ k : Fin 128, relu (hiddenR x0 (val_main_v23 (F := Ideal) x0 x1 x2 x3 x4 x5)
      (val_main_v29 (F := Ideal) x1) x6 x7 n k) * x8 (ix2 k j)) + x9 (ix1 j)
  refine congrArg₂ (· + ·) ?_ rfl
  refine Finset.sum_congr rfl fun k _ => ?_
  have el : lidx_main_v39 (ix2 n j) k = ix2 n k :=
    funext fun a => Fin.ext (by match a with | ⟨0, _⟩ => rfl | ⟨1, _⟩ => rfl)
  have er : ridx_main_v39 (ix2 n j) k = ix2 k j :=
    funext fun a => Fin.ext (by match a with | ⟨0, _⟩ => rfl | ⟨1, _⟩ => rfl)
  rw [el, er, val_main_v38_apply, hidden37, val_main_call2_v0_apply, val_main_call2_cst_apply,
    Ideal.maximumf_def, Ideal.ofBits_def, Ideal.ofBits_zero_f32]
  rfl

end Cert.ReferenceIdeal.RefFinal

end
-- ==== Proof.SpecLaw.lean ====
/-
  The one law that joins the two arrangements of the update: multiplying the aggregate by the reciprocal of the
  clamped degree is dividing by it (the degree is at least one, so it is not zero), and the first weight's two halves
  are its rows 0–127 and 128–255.
-/
import proofs.«414464_j36455682408725_3_alg».proof.Proof.Spec

noncomputable section

open scoped BigOperators

namespace Cert.Gnn

open Idealize.ShloMosaic Idealize.ShloMosaic.ValueIdx

/-- Off zero, the quotient is the product with the inverse. -/
theorem div_eq_mul_inv_of_ne {x d : EReal} (hd : d ≠ 0) : Ideal.div x d = x * d⁻¹ := by
  unfold Ideal.div
  rw [if_neg hd]

/-- The product with the reciprocal `1 / d` is the quotient by `d`, for `d` not zero. -/
theorem mul_recip_eq_div {x d : EReal} (hd : d ≠ 0) : x * Ideal.div 1 d = Ideal.div x d := by
  rw [div_eq_mul_inv_of_ne hd, div_eq_mul_inv_of_ne hd, one_mul]

/-- A maximum with one is not zero. -/
theorem max_one_ne_zero (x : EReal) : max x 1 ≠ 0 := by
  have h : (0 : EReal) < max x 1 := lt_of_lt_of_le (by exact_mod_cast zero_lt_one) (le_max_right x 1)
  exact ne_of_gt h

/-- The kernel's arrangement of the update is the reference's, when the scale is the reciprocal of a nonzero degree,
    the two half weights are the halves of the whole one, and the biases are the same vectors laid out as rows. -/
theorem upd_eq_updR (h agg : Arr2 50000 128) (s : Arr2 50000 1) (d : Arr1 50000) (Ua Ub : Arr2 128 128)
    (U1 : Arr2 256 128) (c1 : Arr1 128) (U2 : Arr2 128 128) (c2 : Arr1 128)
    (hs : ∀ n : Fin 50000, s (ix2 n 0) = Ideal.div 1 (d (ix1 n))) (hd : ∀ n : Fin 50000, d (ix1 n) ≠ 0)
    (ha : ∀ (l k : Fin 128), Ua (ix2 l k) = U1 (ix2 (Fin.castAdd 128 l) k))
    (hb : ∀ (l k : Fin 128), Ub (ix2 l k) = U1 (ix2 (Fin.natAdd 128 l) k)) :
    upd h agg s Ua Ub (asRow c1) U2 (asRow c2) = updR h agg d U1 c1 U2 c2 := by
  funext i
  unfold upd updR
  have hh : ∀ k : Fin 128, hidden h agg s Ua Ub (asRow c1) (rowOfIdx i) k = hiddenR h agg d U1 c1 (rowOfIdx i) k := by
    intro k
    unfold hidden hiddenR
    have e1 : (∑ l : Fin 128, h (ix2 (rowOfIdx i) l) * Ua (ix2 l k))
        = ∑ l : Fin 128, h (ix2 (rowOfIdx i) l) * U1 (ix2 (Fin.castAdd 128 l) k) :=
      Finset.sum_congr rfl fun l _ => by rw [ha l k]
    have e2 : (∑ l : Fin 128, (agg (ix2 (rowOfIdx i) l) * s (ix2 (rowOfIdx i) 0)) * Ub (ix2 l k))
        = ∑ l : Fin 128, Ideal.div (agg (ix2 (rowOfIdx i) l)) (d (ix1 (rowOfIdx i))) * U1 (ix2 (Fin.natAdd 128 l) k) :=
      Finset.sum_congr rfl fun l _ => by rw [hs, mul_recip_eq_div (hd _), hb l k]
    rw [e1, e2]
    rfl
  have e3 : (∑ k : Fin 128, relu (hidden h agg s Ua Ub (asRow c1) (rowOfIdx i) k) * U2 (ix2 k (colOfIdx i)))
      = ∑ k : Fin 128, relu (hiddenR h agg d U1 c1 (rowOfIdx i) k) * U2 (ix2 k (colOfIdx i)) :=
    Finset.sum_congr rfl fun k _ => by rw [hh k]
  rw [e3]
  rfl

end Cert.Gnn

end
-- ==== Proof.Bridge.lean ====
/-
  The kernel's result and the reference's are one function of the arguments.

  The kernel computes the message perceptron once per node and gathers message rows along the edges; the reference
  gathers feature rows along the edges and computes the perceptron once per edge. A gather of rows reads, for edge e,
  the row its (wrapped, clamped) source index selects, whatever the table: so it commutes with a function applied row by
  row. The sums per destination node and the degree count are the same host operations on equal arrays. The kernel
  scales the aggregate by the reciprocal of the clamped degree where the reference divides by it; the degree is at
  least one, so the two agree. The kernel multiplies the node's row and the scaled aggregate by the two halves of
  the first update weight where the reference multiplies their concatenation by the whole weight: the sum over the 256
  joined columns is the two sums over 128.
-/
import proofs.«414464_j36455682408725_3_alg».proof.Proof.KHost
import proofs.«414464_j36455682408725_3_alg».proof.Proof.RefEdge
import proofs.«414464_j36455682408725_3_alg».proof.Proof.RefFinal
import proofs.«414464_j36455682408725_3_alg».proof.Proof.SpecLaw
import Idealize.ShloMosaic.Lib.Pipeline.Value

noncomputable section

namespace Cert.Proof.Bridge

open Cert.KernelIdeal Cert.KernelIdeal.Gen Cert.KernelIdeal.HostChain Cert.Gnn
open Idealize.ShloMosaic Idealize.ShloMosaic.ValueIdx

/-- A bias vector reshaped to `[1, 128]` is the vector laid out as a row. -/
theorem sc_row (b : FVec Ideal S128 .f32) : (shapeCast S1x128 b shapeCasts_S128_S1x128 : Arr2 1 128) = asRow b := by
  funext i
  refine shapeCast_apply b shapeCasts_S128_S1x128 i (ix1 (colOfIdx i)) ?_
  rw [Shape.rowMajor_val_one, Shape.rowMajor_val_two]
  have h0 : (i 0).val < 1 := (i 0).isLt
  show (i 1).val = (i 0).val * 128 + (i 1).val
  omega

/-- The upper half of the first update weight: its rows 0–127. -/
theorem top_half (x6 : FVec Ideal S256x128 .f32) (l k : Fin 128) :
    (extractStridedSlice S128x128 ![0, 0] x6 slices_S256x128_S128x128_0_0 : Arr2 128 128) (ix2 l k)
      = x6 (ix2 (Fin.castAdd 128 l) k) :=
  extractStridedSlice_apply ![0, 0] x6 slices_S256x128_S128x128_0_0 (ix2 l k) (ix2 (Fin.castAdd 128 l) k) (fun a => match a with
    | ⟨0, _⟩ => by show l.val = 0 + l.val; omega
    | ⟨1, _⟩ => by show k.val = 0 + k.val; omega)

/-- The lower half of the first update weight: its rows 128–255. -/
theorem bottom_half (x6 : FVec Ideal S256x128 .f32) (l k : Fin 128) :
    (extractStridedSlice S128x128 ![128, 0] x6 slices_S256x128_S128x128_128_0 : Arr2 128 128) (ix2 l k)
      = x6 (ix2 (Fin.natAdd 128 l) k) :=
  extractStridedSlice_apply ![128, 0] x6 slices_S256x128_S128x128_128_0 (ix2 l k) (ix2 (Fin.natAdd 128 l) k) (fun a => match a with
    | ⟨0, _⟩ => by show 128 + l.val = 128 + l.val; rfl
    | ⟨1, _⟩ => by show k.val = 0 + k.val; omega)

/-- The float pattern of one is one. -/
theorem ofBits_one : Ideal.ofBits .f32 0x3F800000#32 = 1 := by
  simp [Ideal.ofBits, Ideal.ieee, -EReal.coe_mul]; norm_num

/-- The gather's start indices are the same array in the two programs. -/
theorem idx_eq (x1 : IVec S2x800000 32) : Take.idx (colK x1) = Cert.ReferenceIdeal.Read.val_main_v9 (F := Ideal) x1 := rfl

/-- The clamped degree is the same array in the two programs. -/
theorem deg_eq (x1 : IVec S2x800000 32) : degOf (rowK x1) = Cert.ReferenceIdeal.Read.val_main_v29 (F := Ideal) x1 := rfl

/-- A maximum with the splat of one, at a node. -/
theorem max_at (a : FVec Ideal S50000 .f32) (n : Fin 50000) :
    maximumf a (broadcastInDim S50000 ![] bcast_S_S50000 (constant S_ .f32 0x3F800000#32)) (ix1 n) = max (a (ix1 n)) 1 := by
  show max (a (ix1 n)) (Ideal.ofBits .f32 0x3F800000#32) = _
  rw [ofBits_one]

/-- The splat of one divided by a vector, reshaped to a column, at a node: the reciprocal of the vector's entry. -/
theorem recip_at (d : FVec Ideal S50000 .f32) (n : Fin 50000) :
    (shapeCast S50000x1 (Host.divf (broadcastInDim S50000 ![] bcast_S_S50000 (constant S_ .f32 0x3F800000#32)) d)
        shapeCasts_S50000_S50000x1 : Arr2 50000 1) (ix2 n 0)
      = Ideal.div 1 (d (ix1 n)) := by
  refine (shapeCast_apply _ shapeCasts_S50000_S50000x1 (ix2 n (0 : Fin 1)) (ix1 n) ?_).trans ?_
  · rw [Shape.rowMajor_val_one, Shape.rowMajor_val_two]
    show n.val = n.val * 1 + 0
    omega
  · show Ideal.div (Ideal.ofBits .f32 0x3F800000#32) (d (ix1 n)) = _
    rw [ofBits_one]

/-- The clamped degree is never zero. -/
theorem deg_ne (x1 : IVec S2x800000 32) (n : Fin 50000) :
    Cert.ReferenceIdeal.Read.val_main_v29 (F := Ideal) x1 (ix1 n) ≠ 0 := by
  rw [← deg_eq]
  unfold degOf
  rw [max_at]
  exact max_one_ne_zero _

/-- The kernel's scale at a node is the reciprocal of the clamped degree. -/
theorem inv_apply (x1 : IVec S2x800000 32) (n : Fin 50000) :
    (invOf (rowK x1) : Arr2 50000 1) (ix2 n 0) = Ideal.div 1 (Cert.ReferenceIdeal.Read.val_main_v29 (F := Ideal) x1 (ix1 n)) := by
  rw [← deg_eq]
  unfold invOf
  exact recip_at (degOf (rowK x1)) n

/-- Gathering message rows is computing the messages of gathered feature rows. -/
theorem edge_eq (x0 : FVec Ideal S50000x128 .f32) (x1 : IVec S2x800000 32) (x2 : FVec Ideal S128x128 .f32)
    (x3 : FVec Ideal S128 .f32) (x4 : FVec Ideal S128x128 .f32) (x5 : FVec Ideal S128 .f32) :
    Host.gather gather_S50000x128_S800000x1_S800000x128_1_0_n_n_0_1_1128
        (msg x0 x2 (shapeCast S1x128 x3 shapeCasts_S128_S1x128) x4 (shapeCast S1x128 x5 shapeCasts_S128_S1x128))
        (Take.idx (colK x1))
      = Cert.ReferenceIdeal.Read.val_main_v20 (F := Ideal) x0 x1 x2 x3 x4 x5 := by
  funext y
  rw [Take.gather_apply, Cert.ReferenceIdeal.RefEdge.edge_msgs, sc_row, sc_row, idx_eq]
  rfl

/-- The aggregate is the same host operation on equal arrays. -/
theorem agg_eq (x0 : FVec Ideal S50000x128 .f32) (x1 : IVec S2x800000 32) (x2 : FVec Ideal S128x128 .f32)
    (x3 : FVec Ideal S128 .f32) (x4 : FVec Ideal S128x128 .f32) (x5 : FVec Ideal S128 .f32) :
    aggOf (rowK x1) (Cert.ReferenceIdeal.Read.val_main_v20 (F := Ideal) x0 x1 x2 x3 x4 x5)
      = Cert.ReferenceIdeal.Read.val_main_v23 (F := Ideal) x0 x1 x2 x3 x4 x5 := rfl

/-- THE TWO RESULTS ARE ONE FUNCTION of the arguments. -/
theorem kernel_eq_reference (x0 : FVec Ideal S50000x128 .f32) (x1 : IVec S2x800000 32) (x2 : FVec Ideal S128x128 .f32)
    (x3 : FVec Ideal S128 .f32) (x4 : FVec Ideal S128x128 .f32) (x5 : FVec Ideal S128 .f32)
    (x6 : FVec Ideal S256x128 .f32) (x7 : FVec Ideal S128 .f32) (x8 : FVec Ideal S128x128 .f32)
    (x9 : FVec Ideal S128 .f32) :
    upd x0
        (aggOf (rowK x1)
          (Host.gather gather_S50000x128_S800000x1_S800000x128_1_0_n_n_0_1_1128
            (msg x0 x2 (shapeCast S1x128 x3 shapeCasts_S128_S1x128) x4 (shapeCast S1x128 x5 shapeCasts_S128_S1x128))
            (Take.idx (colK x1))))
        (invOf (rowK x1))
        (extractStridedSlice S128x128 ![0, 0] x6 slices_S256x128_S128x128_0_0)
        (extractStridedSlice S128x128 ![128, 0] x6 slices_S256x128_S128x128_128_0)
        (shapeCast S1x128 x7 shapeCasts_S128_S1x128) x8 (shapeCast S1x128 x9 shapeCasts_S128_S1x128)
      = Cert.ReferenceIdeal.Read.val_main_v42 (F := Ideal) x0 x1 x2 x3 x4 x5 x6 x7 x8 x9 := by
  rw [Cert.ReferenceIdeal.RefFinal.final, edge_eq, agg_eq, sc_row, sc_row]
  exact upd_eq_updR x0 _ _ _ _ _ x6 x7 x8 x9 (inv_apply x1) (deg_ne x1) (top_half x6) (bottom_half x6)

end Cert.Proof.Bridge

end
-- ==== Proof.lean ====
/-
  The certificate of a message-passing layer over a graph of 50000 nodes and 800000 edges: each edge carries the
  message perceptron of its source node's features, every node sums the messages of the edges that end at it, divides
  the sum by its in-degree (clamped below at one) and updates its features by a second perceptron of its own row joined
  with that mean.

  The kernel program computes the message perceptron once per NODE (a first blocked region), gathers message rows along
  the edges and sums them per destination on the host, and runs the update as a second blocked region over the node's
  row, the aggregate and the reciprocal degree, with the first update weight cut in two halves. The reference gathers
  FEATURE rows along the edges, computes the perceptron once per edge, and multiplies the concatenation of the node's
  row and the mean by the whole weight. Over the extended reals the two agree wherever every edge's source index is
  in range (the added precondition: the kernel's gather fills an out-of-range row with a not-a-number pattern where
  the reference's clamps): a gather of rows commutes with a function applied row by row, a product with the reciprocal
  of a number that is at least one is the quotient by it, and a sum over 256 joined columns is two sums over 128.

  The frames of the two kernel programs are the generated ones; the reference's frame is its generated run with the
  result dropped; the idealization rewrote nothing, so `preserves` is trivial.
-/
import proofs.«414464_j36455682408725_3_alg».proof.Defs
import proofs.«414464_j36455682408725_3_alg».proof.Proof.Gen.Kernel
import proofs.«414464_j36455682408725_3_alg».proof.Proof.Gen.Kernel.Skeleton
import proofs.«414464_j36455682408725_3_alg».proof.Proof.Gen.Kernel.Launch
import proofs.«414464_j36455682408725_3_alg».proof.Proof.Gen.Kernel.Points
import proofs.«414464_j36455682408725_3_alg».proof.Proof.Gen.Kernel.Frame
import proofs.«414464_j36455682408725_3_alg».proof.Proof.Gen.KernelIdeal
import proofs.«414464_j36455682408725_3_alg».proof.Proof.Gen.KernelIdeal.Skeleton
import proofs.«414464_j36455682408725_3_alg».proof.Proof.Gen.KernelIdeal.Launch
import proofs.«414464_j36455682408725_3_alg».proof.Proof.Gen.KernelIdeal.Points
import proofs.«414464_j36455682408725_3_alg».proof.Proof.Gen.KernelIdeal.Frame
import proofs.«414464_j36455682408725_3_alg».proof.Proof.Gen.ReferenceIdeal
import proofs.«414464_j36455682408725_3_alg».proof.Proof.Gen.ReferenceIdeal.Run
import proofs.«414464_j36455682408725_3_alg».proof.Proof.Gen.ReferenceIdeal.Read
import proofs.«414464_j36455682408725_3_alg».proof.Proof.Gen.Pre_finite_inputs
import proofs.«414464_j36455682408725_3_alg».proof.Proof.KRun
import proofs.«414464_j36455682408725_3_alg».proof.Proof.KHost
import proofs.«414464_j36455682408725_3_alg».proof.Proof.PreDecode
import proofs.«414464_j36455682408725_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel's result array at the function `Cert.KernelIdeal.HostChain.result` names and the
    reference's at its generated term, of arguments that agree; under the precondition the two are one function
    (`Cert.Proof.Bridge.kernel_eq_reference`). -/
theorem algebraic : Cert.algebraic_KernelIdeal_ReferenceIdeal := by
  intro m ρ m' ρ' hpre hagree
  refine ⟨fun c => Cert.KernelIdeal.Gen.W5 m ρ c (Proc.devRef .tc Cert.KernelIdeal.main_v30),
    Cert.KernelIdeal.GenV.run_value (F := Ideal) m ρ, ?_⟩
  refine (θ_run Cert.ReferenceIdeal.defs _ _).mono (fun _ h c => ⟨(h c).1.trans ?_, (h c).2⟩)
    (Cert.ReferenceIdeal.Value.run (F := Ideal) m' ρ')
  have hr := Cert.Pre_finite_inputs.Decode.col_range _ _ _ _ _ _ _ _ _ _ (hpre c)
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2]
  refine (Cert.ReferenceIdeal.Read.val_main_v42_eq _ _ _ _ _ _ _ _ _ _).trans ?_
  refine (Cert.Proof.Bridge.kernel_eq_reference _ _ _ _ _ _ _ _ _ _).symm.trans ?_
  exact (Cert.KernelIdeal.HostChain.result m ρ c hr).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
